-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x64 : Shape := ⟨4, ![8, 128, 128, 64]⟩
abbrev S_ : Shape := ⟨0, ![]⟩

class Facts : Prop where
  bcast_S_S8x128x128x64 : S_.BroadcastsInDim S8x128x128x64 (![] : Fin 0 → Fin S8x128x128x64.rank)
  reducesTo_S8x128x128x64_S_d0_1_2_3 : S8x128x128x64.ReducesTo [0, 1, 2, 3] S_
  h_S_ : 0 < S_.numel

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : FVec F S8x128x128x64 .f32) (main_arg1 : IVec S8x128x128x64 32) : IVec S_ 1 :=
  let main_v0 : IVec S8x128x128x64 32 := iotaInDim S8x128x128x64 32 1
  let main_v1 : IVec S8x128x128x64 32 := iotaInDim S8x128x128x64 32 2
  let main_v2 : FVec F S8x128x128x64 .f32 := Host.absf main_arg0
  let main_cst : FVec F S_ .f32 := constant S_ .f32 0x7F800000#32
  let main_v3 : FVec F S8x128x128x64 .f32 := broadcastInDim S8x128x128x64 ![] bcast_S_S8x128x128x64 main_cst
  let main_v4 : IVec S8x128x128x64 1 := cmpf .olt main_v2 main_v3
  let main_c : IVec S_ 1 := constantI S_ 1 1#1
  let main_v5 : IVec S_ 1 := (fun x v => Host.reduce IntOp.andi x v reducesTo_S8x128x128x64_S_d0_1_2_3 h_S_) main_v4 main_c
  let main_c_0 : IVec S_ 32 := constantI S_ 32 15#32
  let main_v6 : IVec S8x128x128x64 32 := broadcastInDim S8x128x128x64 ![] bcast_S_S8x128x128x64 main_c_0
  let main_v7 : IVec S8x128x128x64 32 := Host.shrsi main_arg1 main_v6
  let main_v8 : IVec S8x128x128x64 1 := cmpi .eq main_v7 main_v0
  let main_c_1 : IVec S_ 1 := constantI S_ 1 1#1
  let main_v9 : IVec S_ 1 := (fun x v => Host.reduce IntOp.andi x v reducesTo_S8x128x128x64_S_d0_1_2_3 h_S_) main_v8 main_c_1
  let main_v10 : IVec S_ 1 := andi main_v5 main_v9
  let main_c_2 : IVec S_ 32 := constantI S_ 32 7#32
  let main_v11 : IVec S8x128x128x64 32 := broadcastInDim S8x128x128x64 ![] bcast_S_S8x128x128x64 main_c_2
  let main_v12 : IVec S8x128x128x64 32 := Host.shrsi main_arg1 main_v11
  let main_c_3 : IVec S_ 32 := constantI S_ 32 127#32
  let main_v13 : IVec S8x128x128x64 32 := broadcastInDim S8x128x128x64 ![] bcast_S_S8x128x128x64 main_c_3
  let main_v14 : IVec S8x128x128x64 32 := andi main_v12 main_v13
  let main_v15 : IVec S8x128x128x64 1 := cmpi .eq main_v14 main_v1
  let main_c_4 : IVec S_ 1 := constantI S_ 1 1#1
  let main_v16 : IVec S_ 1 := (fun x v => Host.reduce IntOp.andi x v reducesTo_S8x128x128x64_S_d0_1_2_3 h_S_) main_v15 main_c_4
  fn_part1 (F := F) main_v10 main_v16
-- ==== Kernel.lean ====
abbrev S8x128x128x64 : Shape := ⟨4, ![8, 128, 128, 64]⟩
abbrev S8x128x2x128x128 : Shape := ⟨5, ![8, 128, 2, 128, 128]⟩
abbrev S1x64x128x64 : Shape := ⟨4, ![1, 64, 128, 64]⟩
abbrev S1x64x2x128x128 : Shape := ⟨5, ![1, 64, 2, 128, 128]⟩
abbrev S64x128x64 : Shape := ⟨3, ![64, 128, 64]⟩
abbrev S64x128x128 : Shape := ⟨3, ![64, 128, 128]⟩
abbrev S1x64x1x128x128 : Shape := ⟨5, ![1, 64, 1, 128, 128]⟩
abbrev S8x256x256x64 : Shape := ⟨4, ![8, 256, 256, 64]⟩

abbrev nBuf : Space → Nat
  | .hbm => 4
  | .vmem => 6
  | .smem => 0
  | _ => 0

abbrev bufTy : (tb : Table) → Fin (tcTables nBuf tb) → BufTy
  | .hbm, ⟨0, _⟩ => ⟨S8x128x128x64, .f32⟩
  | .hbm, ⟨1, _⟩ => ⟨S8x128x128x64, .i32⟩
  | .hbm, ⟨2, _⟩ => ⟨S8x128x2x128x128, .f32⟩
  | .hbm, ⟨3, _⟩ => ⟨S8x256x256x64, .f32⟩
  | .local _ .vmem, ⟨0, _⟩ => ⟨S1x64x128x64, .f32⟩
  | .local _ .vmem, ⟨1, _⟩ => ⟨S1x64x128x64, .f32⟩
  | .local _ .vmem, ⟨2, _⟩ => ⟨S1x64x128x64, .i32⟩
  | .local _ .vmem, ⟨3, _⟩ => ⟨S1x64x128x64, .i32⟩
  | .local _ .vmem, ⟨4, _⟩ => ⟨S1x64x2x128x128, .f32⟩
  | .local _ .vmem, ⟨5, _⟩ => ⟨S1x64x2x128x128, .f32⟩
  | _, _ => ⟨S8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x128x64_S1x64x128x64_0_0_0_0 : ∀ a, (![0, 0, 0, 0] : Fin 4 → Nat) a + S1x64x128x64.size a ≤ S1x64x128x64.size a
  h_S1x64x128x64 : 0 < S1x64x128x64.numel
  shapeCasts_S1x64x128x64_S64x128x64 : S1x64x128x64.ShapeCasts S64x128x64
  concatenates_S64x128x64_S64x128x64_S64x128x128_d2 : Shape.Concatenates [S64x128x64, S64x128x64] S64x128x128 2
  inb_S1x64x2x128x128_S1x64x1x128x128_0_0_0_0_0 : ∀ a, (![0, 0, 0, 0, 0] : Fin 5 → Nat) a + S1x64x1x128x128.size a ≤ S1x64x2x128x128.size a
  h_S1x64x1x128x128 : 0 < S1x64x1x128x128.numel
  shapeCasts_S1x64x1x128x128_S64x128x128 : S1x64x1x128x128.ShapeCasts S64x128x128
  shapeCasts_S64x128x128_S1x64x1x128x128 : S64x128x128.ShapeCasts S1x64x1x128x128
  inb_S1x64x2x128x128_S1x64x1x128x128_0_0_1_0_0 : ∀ a, (![0, 0, 1, 0, 0] : Fin 5 → Nat) a + S1x64x1x128x128.size a ≤ S1x64x2x128x128.size a
  shapeCasts_S8x128x2x128x128_S8x256x256x64 : S8x128x2x128x128.ShapeCasts S8x256x256x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x64.size a ≤ S8x128x128x64.size a
  hwx0_0 : ∀ i : grid0.Coords, EltTy.bits .f32 = 32 ∨ (Rect.block (s := S8x128x128x64) S1x64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128x64.size a ≤ S8x128x128x64.size a
  hwx0_1 : ∀ i : grid0.Coords, EltTy.bits .i32 = 32 ∨ (Rect.block (s := S8x128x128x64) S1x64x128x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2x128x128.size a ≤ S8x128x2x128x128.size a
  hwx0_2 : ∀ i : grid0.Coords, EltTy.bits .f32 = 32 ∨ (Rect.block (s := S8x128x2x128x128) S1x64x2x128x128.size (cc0_transform_2 i) (hinb0_2 i)).WholeWords (EltTy.packing .f32)

variable [Facts₀]

abbrev win0_0 : Pipeline.Window sig grid0 :=
  Pipeline.Window.ofSpec (Memref.whole main_arg0) S1x64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x2x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128x64 : Shape := ⟨4, ![8, 128, 128, 64]⟩
abbrev S_ : Shape := ⟨0, ![]⟩
abbrev S8 : Shape := ⟨1, ![8]⟩
abbrev S8x1x1x1 : Shape := ⟨4, ![8, 1, 1, 1]⟩
abbrev S64 : Shape := ⟨1, ![64]⟩
abbrev S1x1x1x64 : Shape := ⟨4, ![1, 1, 1, 64]⟩
abbrev S8x256x256x64 : Shape := ⟨4, ![8, 256, 256, 64]⟩
abbrev S8x128x128x64x1 : Shape := ⟨5, ![8, 128, 128, 64, 1]⟩
abbrev S8x128x128x64x4 : Shape := ⟨5, ![8, 128, 128, 64, 4]⟩

abbrev nBuf : Space → Nat
  | .hbm => 102
  | .vmem => 0
  | .smem => 0
  | _ => 0

abbrev bufTy : (tb : Table) → Fin (tcTables nBuf tb) → BufTy
  | .hbm, ⟨0, _⟩ => ⟨S8x128x128x64, .f32⟩
  | .hbm, ⟨1, _⟩ => ⟨S8x128x128x64, .i32⟩
  | .hbm, ⟨2, _⟩ => ⟨S_, .i32⟩
  | .hbm, ⟨3, _⟩ => ⟨S_, .i32⟩
  | .hbm, ⟨4, _⟩ => ⟨S8x128x128x64, .i32⟩
  | .hbm, ⟨5, _⟩ => ⟨S8x128x128x64, .i32⟩
  | .hbm, ⟨6, _⟩ => ⟨S8x128x128x64, .i32⟩
  | .hbm, ⟨7, _⟩ => ⟨S_, .i32⟩
  | .hbm, ⟨8, _⟩ => ⟨S8x128x128x64, .i32⟩
  | .hbm, ⟨9, _⟩ => ⟨S8x128x128x64, .i1⟩
  | .hbm, ⟨10, _⟩ => ⟨S8x128x128x64, .i32⟩
  | .hbm, ⟨11, _⟩ => ⟨S8x128x128x64, .i32⟩
  | .hbm, ⟨12, _⟩ => ⟨S_, .i32⟩
  | .hbm, ⟨13, _⟩ => ⟨S8x128x128x64, .i32⟩
  | .hbm, ⟨14, _⟩ => ⟨S8x128x128x64, .i1⟩
  | .hbm, ⟨15, _⟩ => ⟨S8x128x128x64, .i1⟩
  | .hbm, ⟨16, _⟩ => ⟨S_, .i32⟩
  | .hbm, ⟨17, _⟩ => ⟨S8x128x128x64, .i32⟩
  | .hbm, ⟨18, _⟩ => ⟨S8x128x128x64, .i32⟩
  | .hbm, ⟨19, _⟩ => ⟨S8x128x128x64, .i32⟩
  | .hbm, ⟨20, _⟩ => ⟨S_, .i32⟩
  | .hbm, ⟨21, _⟩ => ⟨S_, .i32⟩
  | .hbm, ⟨22, _⟩ => ⟨S8x128x128x64, .i32⟩
  | .hbm, ⟨23, _⟩ => ⟨S8x128x128x64, .i32⟩
  | .hbm, ⟨24, _⟩ => ⟨S8x128x128x64, .i32⟩
  | .hbm, ⟨25, _⟩ => ⟨S_, .i32⟩
  | .hbm, ⟨26, _⟩ => ⟨S8x128x128x64, .i32⟩
  | .hbm, ⟨27, _⟩ => ⟨S8x128x128x64, .i1⟩
  | .hbm, ⟨28, _⟩ => ⟨S8x128x128x64, .i32⟩
  | .hbm, ⟨29, _⟩ => ⟨S8x128x128x64, .i32⟩
  | .hbm, ⟨30, _⟩ => ⟨S_, .i32⟩
  | .hbm, ⟨31, _⟩ => ⟨S8x128x128x64, .i32⟩
  | .hbm, ⟨32, _⟩ => ⟨S8x128x128x64, .i1⟩
  | .hbm, ⟨33, _⟩ => ⟨S8x128x128x64, .i1⟩
  | .hbm, ⟨34, _⟩ => ⟨S_, .i32⟩
  | .hbm, ⟨35, _⟩ => ⟨S8x128x128x64, .i32⟩
  | .hbm, ⟨36, _⟩ => ⟨S8x128x128x64, .i32⟩
  | .hbm, ⟨37, _⟩ => ⟨S8x128x128x64, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S8x128x128x64, .i32⟩
  | .hbm, ⟨45, _⟩ => ⟨S8x128x128x64, .i32⟩
  | .hbm, ⟨46, _⟩ => ⟨S_, .i32⟩
  | .hbm, ⟨47, _⟩ => ⟨S8x128x128x64, .i32⟩
  | .hbm, ⟨48, _⟩ => ⟨S8x128x128x64, .i1⟩
  | .hbm, ⟨49, _⟩ => ⟨S_, .i32⟩
  | .hbm, ⟨50, _⟩ => ⟨S8x128x128x64, .i32⟩
  | .hbm, ⟨51, _⟩ => ⟨S8x128x128x64, .i1⟩
  | .hbm, ⟨52, _⟩ => ⟨S_, .i32⟩
  | .hbm, ⟨53, _⟩ => ⟨S_, .i1⟩
  | .hbm, ⟨54, _⟩ => ⟨S8x128x128x64, .i1⟩
  | .hbm, ⟨55, _⟩ => ⟨S8x128x128x64, .i1⟩
  | .hbm, ⟨56, _⟩ => ⟨S8x128x128x64, .i1⟩
  | .hbm, ⟨57, _⟩ => ⟨S8x128x128x64, .i32⟩
  | .hbm, ⟨58, _⟩ => ⟨S8x128x128x64, .i32⟩
  | .hbm, ⟨59, _⟩ => ⟨S8x128x128x64, .i32⟩
  | .hbm, ⟨60, _⟩ => ⟨S8, .i32⟩
  | .hbm, ⟨61, _⟩ => ⟨S8x1x1x1, .i32⟩
  | .hbm, ⟨62, _⟩ => ⟨S64, .i32⟩
  | .hbm, ⟨63, _⟩ => ⟨S1x1x1x64, .i32⟩
  | .hbm, ⟨64, _⟩ => ⟨S_, .f32⟩
  | .hbm, ⟨65, _⟩ => ⟨S8x256x256x64, .f32⟩
  | .hbm, ⟨66, _⟩ => ⟨S_, .i32⟩
  | .hbm, ⟨67, _⟩ => ⟨S8x1x1x1, .i32⟩
  | .hbm, ⟨68, _⟩ => ⟨S8x1x1x1, .i1⟩
  | .hbm, ⟨69, _⟩ => ⟨S_, .i32⟩
  | .hbm, ⟨70, _⟩ => ⟨S8x1x1x1, .i32⟩
  | .hbm, ⟨71, _⟩ => ⟨S8x1x1x1, .i32⟩
  | .hbm, ⟨72, _⟩ => ⟨S8x1x1x1, .i32⟩
  | .hbm, ⟨73, _⟩ => ⟨S_, .i32⟩
  | .hbm, ⟨74, _⟩ => ⟨S8x128x128x64, .i32⟩
  | .hbm, ⟨75, _⟩ => ⟨S8x128x128x64, .i1⟩
  | .hbm, ⟨76, _⟩ => ⟨S_, .i32⟩
  | .hbm, ⟨77, _⟩ => ⟨S8x128x128x64, .i32⟩
  | .hbm, ⟨78, _⟩ => ⟨S8x128x128x64, .i32⟩
  | .hbm, ⟨79, _⟩ => ⟨S8x128x128x64, .i32⟩
  | .hbm, ⟨80, _⟩ => ⟨S_, .i32⟩
  | .hbm, ⟨81, _⟩ => ⟨S8x128x128x64, .i32⟩
  | .hbm, ⟨82, _⟩ => ⟨S8x128x128x64, .i1⟩
  | .hbm, ⟨83, _⟩ => ⟨S_, .i32⟩
  | .hbm, ⟨84, _⟩ => ⟨S8x128x128x64, .i32⟩
  | .hbm, ⟨85, _⟩ => ⟨S8x128x128x64, .i32⟩
  | .hbm, ⟨86, _⟩ => ⟨S8x128x128x64, .i32⟩
  | .hbm, ⟨87, _⟩ => ⟨S_, .i32⟩
  | .hbm, ⟨88, _⟩ => ⟨S1x1x1x64, .i32⟩
  | .hbm, ⟨89, _⟩ => ⟨S1x1x1x64, .i1⟩
  | .hbm, ⟨90, _⟩ => ⟨S_, .i32⟩
  | .hbm, ⟨91, _⟩ => ⟨S1x1x1x64, .i32⟩
  | .hbm, ⟨92, _⟩ => ⟨S1x1x1x64, .i32⟩
  | .hbm, ⟨93, _⟩ => ⟨S1x1x1x64, .i32⟩
  | .hbm, ⟨94, _⟩ => ⟨S8x128x128x64, .i32⟩
  | .hbm, ⟨95, _⟩ => ⟨S8x128x128x64, .i32⟩
  | .hbm, ⟨96, _⟩ => ⟨S8x128x128x64x1, .i32⟩
  | .hbm, ⟨97, _⟩ => ⟨S8x128x128x64x1, .i32⟩
  | .hbm, ⟨98, _⟩ => ⟨S8x128x128x64x1, .i32⟩
  | .hbm, ⟨99, _⟩ => ⟨S8x128x128x64x1, .i32⟩
  | .hbm, ⟨100, _⟩ => ⟨S8x128x128x64x4, .i32⟩
  | .hbm, ⟨101, _⟩ => ⟨S8x256x256x64, .f32⟩
  | _, _ => ⟨S8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v0 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v1 : Ref sig .tc := ⟨.hbm, 37, rfl⟩
abbrev main_c_1 : Ref sig .tc := ⟨.hbm, 38, rfl⟩
abbrev main_call2_v0 : Ref sig .tc := ⟨.hbm, 39, rfl⟩
abbrev main_call2_c : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_c_1 : Ref sig .tc := ⟨.hbm, 46, rfl⟩
abbrev main_call2_v5 : Ref sig .tc := ⟨.hbm, 47, rfl⟩
abbrev main_call2_v6 : Ref sig .tc := ⟨.hbm, 48, rfl⟩
abbrev main_call2_c_2 : Ref sig .tc := ⟨.hbm, 49, rfl⟩
abbrev main_call2_v7 : Ref sig .tc := ⟨.hbm, 50, rfl⟩
abbrev main_call2_v8 : Ref sig .tc := ⟨.hbm, 51, rfl⟩
abbrev main_call2_c_3 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_v14 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_cst : Ref sig .tc := ⟨.hbm, 64, rfl⟩
abbrev main_v7 : Ref sig .tc := ⟨.hbm, 65, rfl⟩
abbrev main_c_2 : Ref sig .tc := ⟨.hbm, 66, rfl⟩
abbrev main_v8 : Ref sig .tc := ⟨.hbm, 67, rfl⟩
abbrev main_v9 : Ref sig .tc := ⟨.hbm, 68, rfl⟩
abbrev main_c_3 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_c_4 : Ref sig .tc := ⟨.hbm, 73, rfl⟩
abbrev main_v13 : Ref sig .tc := ⟨.hbm, 74, rfl⟩
abbrev main_v14 : Ref sig .tc := ⟨.hbm, 75, rfl⟩
abbrev main_c_5 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_c_6 : Ref sig .tc := ⟨.hbm, 80, rfl⟩
abbrev main_v18 : Ref sig .tc := ⟨.hbm, 81, rfl⟩
abbrev main_v19 : Ref sig .tc := ⟨.hbm, 82, rfl⟩
abbrev main_c_7 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_c_8 : Ref sig .tc := ⟨.hbm, 87, rfl⟩
abbrev main_v23 : Ref sig .tc := ⟨.hbm, 88, rfl⟩
abbrev main_v24 : Ref sig .tc := ⟨.hbm, 89, rfl⟩
abbrev main_c_9 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩

abbrev nD : Nat := 1
abbrev τ : Topo := Topo.v7x

variable {F : FTy → Type} [FloatOps F]

class Facts₀ : Prop where
  bcast_S_S8x128x128x64 : S_.BroadcastsInDim S8x128x128x64 (![] : Fin 0 → Fin S8x128x128x64.rank)
  bcast_S8_S8x1x1x1_0 : S8.BroadcastsInDim S8x1x1x1 (![0] : Fin 1 → Fin S8x1x1x1.rank)
  bcast_S64_S1x1x1x64_3 : S64.BroadcastsInDim S1x1x1x64 (![3] : Fin 1 → Fin S1x1x1x64.rank)
  bcast_S_S8x256x256x64 : S_.BroadcastsInDim S8x256x256x64 (![] : Fin 0 → Fin S8x256x256x64.rank)
  bcast_S_S8x1x1x1 : S_.BroadcastsInDim S8x1x1x1 (![] : Fin 0 → Fin S8x1x1x1.rank)
  bcast_S_S1x1x1x64 : S_.BroadcastsInDim S1x1x1x64 (![] : Fin 0 → Fin S1x1x1x64.rank)
  bcast_S8x1x1x1_S8x128x128x64_0_1_2_3 : S8x1x1x1.BroadcastsInDim S8x128x128x64 (![0, 1, 2, 3] : Fin 4 → Fin S8x128x128x64.rank)
  bcast_S1x1x1x64_S8x128x128x64_0_1_2_3 : S1x1x1x64.BroadcastsInDim S8x128x128x64 (![0, 1, 2, 3] : Fin 4 → Fin S8x128x128x64.rank)
  bcast_S8x128x128x64_S8x128x128x64x1_0_1_2_3 : S8x128x128x64.BroadcastsInDim S8x128x128x64x1 (![0, 1, 2, 3] : Fin 4 → Fin S8x128x128x64x1.rank)
  concatenates_S8x128x128x64x1_S8x128x128x64x1_S8x128x128x64x1_S8x128x128x64x1_S8x128x128x64x4_d4 : Shape.Concatenates [S8x128x128x64x1, S8x128x128x64x1, S8x128x128x64x1, S8x128x128x64x1] S8x128x128x64x4 4
  scatter_S8x256x256x64_S8x128x128x64x4_S8x128x128x64_n_0123_0123_4_wf : ScatterDims.WF S8x256x256x64 S8x128x128x64x4 S8x128x128x64 [] [0, 1, 2, 3] [0, 1, 2, 3] 4

variable [Facts₀]

def scatter_S8x256x256x64_S8x128x128x64x4_S8x128x128x64_n_0123_0123_4 : ScatterDims S8x256x256x64 S8x128x128x64x4 S8x128x128x64 where
  updateWindowDims := []
  insertedWindowDims := [0, 1, 2, 3]
  scatterDimsToOperandDims := [0, 1, 2, 3]
  indexVectorDim := 4
  wf := scatter_S8x256x256x64_S8x128x128x64x4_S8x128x128x64_n_0123_0123_4_wf

class Facts : Prop extends Facts₀ where

variable [Facts]
-- ==== Proof.Spec.lean ====
/-
  Max-unpooling with 2×2 windows, stated apart from both programs.

  An input position (b, h, w, c) of the pooled array carries a value `upd` and a flat index word `m` into the
  unpooled [256, 256, 64] volume: `m = row · (256 · 64) + col · 64 + feature`.  The row of the target is
  `m / 16384` and its column `(m / 64) mod 256`.  When the index is LOCAL — it points into the position's own
  2×2 window, i.e. `row / 2 = h` and `col / 2 = w` — the target is decided by two bits of the word alone: bit 14
  (the row's parity, `rowBit`) and bit 6 (the column's parity, `colBit`).  The unpooled array `G` then holds,
  at (b, Y, X, c), the value of the one position (b, Y/2, X/2, c) that can reach it, if that position's two bits
  are the parities of Y and X, and zero otherwise.

  `floorDiv`, `floorMod` and `wrap` are the word-level forms of a floored quotient, a floored remainder and
  the reading of a negative index from the end, as compositions of truncating division, sign tests and selects;
  `idxWord` is the start index (batch, row, column, feature) a position scatters to.
-/
import Idealize.ShloMosaic.PureOps.Ideal
import Idealize.ShloMosaic.Lib.ValueIdx

noncomputable section

namespace Cert.Unpool

open Idealize.ShloMosaic Idealize.ShloMosaic.ValueIdx

/-- The pooled shape: batch, pooled row, pooled column, feature. -/
abbrev SIn : Shape := ⟨4, ![8, 128, 128, 64]⟩
/-- The unpooled shape: batch, row, column, feature. -/
abbrev SOut : Shape := ⟨4, ![8, 256, 256, 64]⟩

/-- Bit 14 of a flat index word: the parity of the row it points to. -/
def rowBit (m : BitVec 32) : BitVec 32 := IntOp.andi (IntOp.shrsi .vector m 14#32) 1#32
/-- Bit 6 of a flat index word: the parity of the column it points to. -/
def colBit (m : BitVec 32) : BitVec 32 := IntOp.andi (IntOp.shrsi .vector m 6#32) 1#32

/-- Half of a row or column coordinate of the unpooled array: the pooled coordinate whose window holds it. -/
def half (Y : Fin 256) : Fin 128 := ⟨Y.val / 2, by omega⟩

/-- The unpooled array at (b, Y, X, c), over explicit coordinates. -/
def G4 (upd : SIn.Idx → EReal) (mk : SIn.Idx → BitVec 32) (b : Fin 8) (Y X : Fin 256) (c : Fin 64) : EReal :=
  if rowBit (mk (ix4 b (half Y) (half X) c)) = BitVec.ofNat 32 (Y.val % 2)
      ∧ colBit (mk (ix4 b (half Y) (half X) c)) = BitVec.ofNat 32 (X.val % 2)
    then upd (ix4 b (half Y) (half X) c) else 0

/-- The unpooled array: each element is the value of the one pooled position whose window holds it, when that
    position's index bits name it, and zero otherwise. -/
def G (upd : SIn.Idx → EReal) (mk : SIn.Idx → BitVec 32) : SOut.Idx → EReal :=
  fun i => G4 upd mk (i 0) (i 1) (i 2) (i 3)

/-- Every index word points into its own position's 2×2 window: the row it names, halved, is the pooled row
    (`m >> 15 = h`), and the column it names, halved, is the pooled column (`(m >> 7) & 127 = w`). -/
def Local (mk : SIn.Idx → BitVec 32) : Prop :=
  ∀ (b : Fin 8) (h w : Fin 128) (c : Fin 64),
    IntOp.shrsi .host (mk (ix4 b h w c)) 15#32 = BitVec.ofNat 32 h.val
      ∧ IntOp.andi (IntOp.shrsi .host (mk (ix4 b h w c)) 7#32) 127#32 = BitVec.ofNat 32 w.val

/-- The sign of a word as a word: 0, −1 or 1. -/
def sign (x : BitVec 32) : BitVec 32 := if x = 0 then 0 else if x.msb then -1 else 1

/-- The floored quotient from the truncating one: one less when the signs differ and the division is inexact. -/
def floorDiv (m d : BitVec 32) : BitVec 32 :=
  Scalar.select (IntOp.andi (IntOp.cmpi .ne (sign m) (sign d)) (IntOp.cmpi .ne (IntOp.remsi .host m d) 0#32))
    (IntOp.subi (IntOp.divsi .host m d) 1#32) (IntOp.divsi .host m d)

/-- The divisor a floored remainder really divides by: 1 in place of 0. -/
def safeDiv (d : BitVec 32) : BitVec 32 := Scalar.select (IntOp.cmpi .eq d 0#32) 1#32 d

/-- The floored remainder from the truncating one: the divisor added when the remainder is nonzero and its sign is
    not the divisor's. -/
def floorMod (m d : BitVec 32) : BitVec 32 :=
  Scalar.select
    (IntOp.andi (IntOp.cmpi .ne (IntOp.cmpi .slt (IntOp.remsi .host m (safeDiv d)) 0#32) (IntOp.cmpi .slt (safeDiv d) 0#32))
      (IntOp.cmpi .ne (IntOp.remsi .host m (safeDiv d)) 0#32))
    (IntOp.addi (IntOp.remsi .host m (safeDiv d)) (safeDiv d)) (IntOp.remsi .host m (safeDiv d))

/-- A negative index read from the end of an axis of extent `n`. -/
def wrap (n x : BitVec 32) : BitVec 32 := Scalar.select (IntOp.cmpi .slt x 0#32) (IntOp.addi x n) x

/-- Component `k` of the start index the pooled position (b, h, w, c) scatters to: its own batch, the row and the
    column its index word names, its own feature. -/
def idxWord (mk : SIn.Idx → BitVec 32) (b : Fin 8) (h w : Fin 128) (c : Fin 64) (k : Fin 4) : BitVec 32 :=
  match k with
  | ⟨0, _⟩ => wrap 8#32 (BitVec.ofNat 32 b.val)
  | ⟨1, _⟩ => wrap 256#32 (floorDiv (mk (ix4 b h w c)) 16384#32)
  | ⟨2, _⟩ => wrap 256#32 (floorMod (floorDiv (mk (ix4 b h w c)) 64#32) 256#32)
  | ⟨3, _⟩ => wrap 64#32 (BitVec.ofNat 32 c.val)

end Cert.Unpool

end
-- ==== Proof.KernelBlock.lean ====
/-
  What the kernel body leaves in its output block, element by element.

  The body reads one block [1, 64, 128, 64] of pooled values and one of index words, and fills an output block
  [1, 64, 2, 128, 128]: for each pooled row of the block, two slabs (the two rows of the 2×2 window), each a row of
  128 pooled columns by 128 lanes — the lanes 0–63 are the 64 features at the window's left column, the lanes
  64–127 the same features at its right column.  It builds the doubled last axis by joining two selects on the
  column bit (the value or zero; zero or the value), and then selects on the row bit once per slab.  Read at an
  index, the two nested selects are one test: the element at slab `s`, lane `j` is the pooled value at feature
  `j mod 64` if the word's row bit is `s` and its column bit is `j / 64`, and zero otherwise (`pick`).  The one
  fact about words used is that a word's lowest bit is 0 or 1, so "column bit not 0" on the upper half of the lanes
  is "column bit 1".

  The body's two stores are the two slabs; together they tile the block, so the block it leaves is the one
  function `blockFn` of the block index, whichever slab an index lies in.
-/
import proofs.«403514_j1082331758744_3_alg».proof.Proof.Gen.KernelIdeal.Frame
import proofs.«403514_j1082331758744_3_alg».proof.Proof.Spec
import Idealize.ShloMosaic.Lib.Pipeline.Value
import Idealize.ShloMosaic.Lib.ValueIdx
import Idealize.ShloMosaic.PureOps.Ideal.Laws

noncomputable section

namespace Cert.KernelIdeal.KBlock

open Idealize.ShloMosaic Idealize.ShloMosaic.ValueIdx Cert.KernelIdeal Cert.KernelIdeal.Gen Cert.Unpool

/-- A select on an equality test of two words is the conditional on their equality. -/
theorem select_cmpi_eq {α : Type} (a b : BitVec 32) (u v : α) :
    Scalar.select (IntOp.cmpi .eq a b) u v = if a = b then u else v := by
  unfold Scalar.select; exact if_congr IntOp.cmpi_eq rfl rfl

/-- The lowest bit of a word is 0 or 1. -/
theorem and_one_cases (x : BitVec 32) : x &&& 1#32 = 0#32 ∨ x &&& 1#32 = 1#32 := by
  have h : (x &&& 1#32).toNat = x.toNat % 2 := by rw [BitVec.toNat_and]; exact Nat.and_one_is_mod _
  rcases Nat.mod_two_eq_zero_or_one x.toNat with h0 | h1
  · left; apply BitVec.eq_of_toNat_eq; rw [h, h0]; rfl
  · right; apply BitVec.eq_of_toNat_eq; rw [h, h1]; rfl

theorem colBit_cases (m : BitVec 32) : colBit m = 0#32 ∨ colBit m = 1#32 := and_one_cases _

/-- The feature a lane of the doubled last axis carries: lanes 0–63 and 64–127 both run over the 64 features. -/
def lane (j : Fin 128) : Fin 64 := ⟨j.val % 64, Nat.mod_lt _ (by decide)⟩

variable (x0 : Vec Ideal S1x64x128x64 .f32) (x1 : Vec Ideal S1x64x128x64 .i32)

/-- A block [1, 64, 128, 64] viewed without its leading unit axis. -/
theorem drop0_apply {α : Type} (x : S1x64x128x64.Idx → α) (hh : Fin 64) (w : Fin 128) (c : Fin 64) :
    shapeCast S64x128x64 x shapeCasts_S1x64x128x64_S64x128x64 (ix3 hh w c) = x (ix4 (0 : Fin 1) hh w c) :=
  shapeCast_apply x _ (ix3 hh w c) (ix4 (0 : Fin 1) hh w c) (by
    rw [Shape.rowMajor_val_four, Shape.rowMajor_val_three]
    show ((0 * 64 + hh.val) * 128 + w.val) * 64 + c.val = (hh.val * 128 + w.val) * 64 + c.val
    omega)

theorem pay2_apply (hh : Fin 64) (w : Fin 128) (c : Fin 64) :
    k0_pay2 (F := Ideal) x1 (ix3 hh w c) = x1 (ix4 (0 : Fin 1) hh w c) := by
  unfold k0_pay2
  exact drop0_apply x1 hh w c

/-- Two arrays joined along the last axis, read at a lane: the first below lane 64, the second from it on, each at the
    lane's feature. -/
theorem cat_apply {α : Type} (v₁ v₂ : S64x128x64.Idx → α) (hh : Fin 64) (w : Fin 128) (j : Fin 128) :
    concatenate S64x128x128 2 [⟨S64x128x64, v₁⟩, ⟨S64x128x64, v₂⟩] concatenates_S64x128x64_S64x128x64_S64x128x128_d2 (ix3 hh w j)
      = if j.val < 64 then v₁ (ix3 hh w (lane j)) else v₂ (ix3 hh w (lane j)) := by
  have hj : j.val < 128 := j.isLt
  by_cases h : j.val < 64
  · rw [if_pos h]
    refine concatenate_pair_apply_left _ v₁ v₂ _ (ix3 hh w j) rfl (ix3 hh w (lane j)) ?_
    intro b
    match b with
    | ⟨0, _⟩ => rfl
    | ⟨1, _⟩ => rfl
    | ⟨2, _⟩ => show j.val % 64 = j.val; omega
  · rw [if_neg h]
    refine concatenate_pair_apply_right _ v₁ v₂ _ (ix3 hh w j) rfl rfl (ix3 hh w (lane j)) ?_ ?_
    · intro b hb
      match b with
      | ⟨0, _⟩ => rfl
      | ⟨1, _⟩ => rfl
      | ⟨2, _⟩ => exact absurd rfl hb
    · show j.val % 64 + 64 = j.val; omega

theorem pay4_apply (hh : Fin 64) (w : Fin 128) (j : Fin 128) :
    k0_pay4 (F := Ideal) x1 (ix3 hh w j) = rowBit (x1 (ix4 (0 : Fin 1) hh w (lane j))) := by
  unfold k0_pay4
  rw [cat_apply, ite_self]
  show IntOp.andi (IntOp.shrsi .vector (k0_pay2 (F := Ideal) x1 (ix3 hh w (lane j))) 14#32) 1#32 = _
  rw [pay2_apply]
  rfl

/-- The column-bit select: the value goes to the half of the doubled axis its column bit names, zero to the other. -/
theorem pay3_apply (hh : Fin 64) (w : Fin 128) (j : Fin 128) :
    k0_pay3 (F := Ideal) x1 x0 (ix3 hh w j)
      = if j.val < 64 then (if colBit (x1 (ix4 (0 : Fin 1) hh w (lane j))) = 0#32 then x0 (ix4 (0 : Fin 1) hh w (lane j)) else 0)
        else (if colBit (x1 (ix4 (0 : Fin 1) hh w (lane j))) = 0#32 then 0 else x0 (ix4 (0 : Fin 1) hh w (lane j))) := by
  unfold k0_pay3
  rw [cat_apply]
  simp only [select, cmpi, andi, shrsi, broadcast, pay2_apply, drop0_apply, select_cmpi_eq]
  rw [show (FloatOps.ofBits FTy.f32 0#32 : Ideal .f32) = (0 : EReal) from Ideal.ofBits_zero_f32]
  rfl

/-- A [64, 128, 128] value stored as a [1, 64, 1, 128, 128] slab. -/
theorem slab_apply {α : Type} (v : S64x128x128.Idx → α) (a0 : Fin 1) (hh : Fin 64) (a2 : Fin 1) (w j : Fin 128) :
    shapeCast S1x64x1x128x128 v shapeCasts_S64x128x128_S1x64x1x128x128 (ix5 a0 hh a2 w j) = v (ix3 hh w j) :=
  shapeCast_apply v _ (ix5 a0 hh a2 w j) (ix3 hh w j) (by
    rw [Shape.rowMajor_val_five, Shape.rowMajor_val_three]
    show (hh.val * 128 + w.val) * 128 + j.val = (((a0.val * 64 + hh.val) * 1 + a2.val) * 128 + w.val) * 128 + j.val
    have h0 : a0.val < 1 := a0.isLt
    have h2 : a2.val < 1 := a2.isLt
    omega)

/-- What the body places at a slab, a pooled row, a pooled column and a lane of the doubled last axis: the value of the
    position the lane's feature names, if the slab is its row bit and the lane's half its column bit; else zero. -/
def pick (u : EReal) (m : BitVec 32) (s q : Nat) : EReal :=
  if rowBit m = BitVec.ofNat 32 s ∧ colBit m = BitVec.ofNat 32 q then u else 0

/-- The two nested selects are one test of both bits: the column bit is 0 or 1, so "not 0" on the upper half is "1". -/
theorem selects_eq_pick (u : EReal) (m : BitVec 32) (s j : Nat) (hj : j < 128) :
    (if rowBit m = BitVec.ofNat 32 s then
        (if j < 64 then (if colBit m = 0#32 then u else 0) else (if colBit m = 0#32 then 0 else u)) else 0)
      = pick u m s (j / 64) := by
  unfold pick
  by_cases hr : rowBit m = BitVec.ofNat 32 s
  · rw [if_pos hr]
    by_cases h : j < 64
    · have q : j / 64 = 0 := by omega
      rw [if_pos h, q]
      by_cases hc : colBit m = 0#32
      · rw [if_pos hc, if_pos ⟨hr, hc⟩]
      · rw [if_neg hc, if_neg (fun hh => hc hh.2)]
    · have q : j / 64 = 1 := by omega
      rw [if_neg h, q]
      rcases colBit_cases m with hc | hc
      · rw [if_pos hc, if_neg (fun hh => by rw [hc] at hh; exact absurd hh.2 (by decide))]
      · rw [if_neg (by rw [hc]; decide), if_pos ⟨hr, hc⟩]
  · rw [if_neg hr, if_neg (fun hh => hr hh.1)]

/-- The block the body leaves, over explicit coordinates. -/
def blkVal (hh : Fin 64) (s : Fin 2) (w j : Fin 128) : EReal :=
  pick (x0 (ix4 (0 : Fin 1) hh w (lane j))) (x1 (ix4 (0 : Fin 1) hh w (lane j))) s.val (j.val / 64)

/-- The block the body leaves, as one function of the block index. -/
def blockFn : S1x64x2x128x128.Idx → EReal := fun y => blkVal x0 x1 (y 1) (y 2) (y 3) (y 4)

/-- Slab 0 holds the row-bit-0 select. -/
theorem slab0_apply (a0 : Fin 1) (hh : Fin 64) (a2 : Fin 1) (w j : Fin 128) :
    k0_pay6 (F := Ideal) x1 x0 (ix5 a0 hh a2 w j) = blkVal x0 x1 hh 0 w j := by
  unfold k0_pay6
  rw [slab_apply]
  simp only [select, cmpi, broadcast, pay4_apply, pay3_apply, select_cmpi_eq]
  rw [show (FloatOps.ofBits FTy.f32 0#32 : Ideal .f32) = (0 : EReal) from Ideal.ofBits_zero_f32]
  exact selects_eq_pick _ _ 0 j.val j.isLt

/-- Slab 1 holds the row-bit-1 select. -/
theorem slab1_apply (a0 : Fin 1) (hh : Fin 64) (a2 : Fin 1) (w j : Fin 128) :
    k0_pay1 (F := Ideal) (k0_pay5 x1 x0) (ix5 a0 hh a2 w j) = blkVal x0 x1 hh 1 w j := by
  unfold k0_pay1
  rw [slab_apply]
  unfold k0_pay5
  simp only [select, cmpi, broadcast, pay4_apply, pay3_apply, select_cmpi_eq]
  rw [show (FloatOps.ofBits FTy.f32 0#32 : Ideal .f32) = (0 : EReal) from Ideal.ofBits_zero_f32]
  exact selects_eq_pick _ _ 1 j.val j.isLt

theorem hz4 : (![0, 0, 0, 0] : Fin 4 → Nat) = fun _ => 0 := funext fun a => by fin_cases a <;> rfl

/-- WHAT THE BODY LEAVES in the output block: `blockFn` of the two input blocks. -/
theorem out_eq : out0_2 (F := Ideal) x0 x1 = blockFn x0 x1 := by
  funext y
  unfold out0_2
  rw [View.ld_unit_zero (S := S1x64x128x64) hz4, View.ld_unit_zero (S := S1x64x128x64) hz4]
  refine View.canon_apply_of_pieces (Val := Elt Ideal) (blockFn x0 x1) _ ?_ y (cover0_2 _ _ y)
  intro p hp x
  simp only [List.mem_cons, List.mem_nil_iff, or_false] at hp
  rcases hp with rfl | rfl
  · show k0_pay1 (F := Ideal) (k0_pay5 x1 x0) x = blockFn x0 x1 (r0_2.emb x)
    obtain ⟨a0, hh, a2, w, j, rfl⟩ : ∃ (a0 : Fin 1) (hh : Fin 64) (a2 : Fin 1) (w j : Fin 128), x = ix5 a0 hh a2 w j :=
      ⟨x 0, x 1, x 2, x 3, x 4, eq_ix5 x⟩
    have h2 : a2.val < 1 := a2.isLt
    have e1 : r0_2.emb (ix5 a0 hh a2 w j) 1 = hh := Fin.ext (by show 0 + 1 * hh.val = hh.val; omega)
    have e2 : r0_2.emb (ix5 a0 hh a2 w j) 2 = (1 : Fin 2) := Fin.ext (by show 1 + 1 * a2.val = 1; omega)
    have e3 : r0_2.emb (ix5 a0 hh a2 w j) 3 = w := Fin.ext (by show 0 + 1 * w.val = w.val; omega)
    have e4 : r0_2.emb (ix5 a0 hh a2 w j) 4 = j := Fin.ext (by show 0 + 1 * j.val = j.val; omega)
    unfold blockFn
    rw [e1, e2, e3, e4]
    exact slab1_apply x0 x1 a0 hh a2 w j
  · show k0_pay6 (F := Ideal) x1 x0 x = blockFn x0 x1 (r0_1.emb x)
    obtain ⟨a0, hh, a2, w, j, rfl⟩ : ∃ (a0 : Fin 1) (hh : Fin 64) (a2 : Fin 1) (w j : Fin 128), x = ix5 a0 hh a2 w j :=
      ⟨x 0, x 1, x 2, x 3, x 4, eq_ix5 x⟩
    have h2 : a2.val < 1 := a2.isLt
    have e1 : r0_1.emb (ix5 a0 hh a2 w j) 1 = hh := Fin.ext (by show 0 + 1 * hh.val = hh.val; omega)
    have e2 : r0_1.emb (ix5 a0 hh a2 w j) 2 = (0 : Fin 2) := Fin.ext (by show 0 + 1 * a2.val = 0; omega)
    have e3 : r0_1.emb (ix5 a0 hh a2 w j) 3 = w := Fin.ext (by show 0 + 1 * w.val = w.val; omega)
    have e4 : r0_1.emb (ix5 a0 hh a2 w j) 4 = j := Fin.ext (by show 0 + 1 * j.val = j.val; omega)
    unfold blockFn
    rw [e1, e2, e3, e4]
    exact slab0_apply x0 x1 a0 hh a2 w j

end Cert.KernelIdeal.KBlock

end
-- ==== Proof.KernelArray.lean ====
/-
  From the body's blocks to the folded array.

  The kernel's one region runs over a grid of 8 × 2 points: point (b, k) reads the pooled rows 64k … 64k + 63 of
  batch b of both arguments and writes the block of the folded array [8, 128, 2, 128, 128] at batch b and those
  pooled rows (both slabs, all columns, all lanes).  The folded array `foldFn` is the body's block function read
  over the whole array: at (b, h, s, w, j) the value of the pooled position (b, h, w, j mod 64) if its index word's
  row bit is s and its column bit is j / 64, and zero otherwise.

  Each point's block is the block of `foldFn` at that point, because the input blocks are the arguments read at the
  same batch and pooled rows (the index maps of the three windows agree on those two axes and are zero on the
  others); the sixteen blocks tile the folded array (the block holding an index is the one at its batch and at
  the half of the pooled rows its row lies in); so after the region the folded array is `foldFn` of the two
  arguments.
-/
import proofs.«403514_j1082331758744_3_alg».proof.Proof.KernelBlock

set_option maxRecDepth 16384

noncomputable section

namespace Cert.KernelIdeal.KArray

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.KBlock Cert.Unpool

variable (m : (ℓ : Loc nD τ sig) → Buf (Elt Ideal) ℓ)

/-- The folded array [8, 128, 2, 128, 128] over explicit coordinates: at batch `b`, pooled row `h`, slab `s`, pooled
    column `w` and lane `j`, the value of the pooled position (b, h, w, j mod 64) if its row bit is `s` and its column
    bit is `j / 64`; else zero. -/
def foldVal (upd : SIn.Idx → EReal) (mk : SIn.Idx → BitVec 32) (b : Fin 8) (h : Fin 128) (s : Fin 2) (w j : Fin 128) : EReal :=
  pick (upd (ix4 b h w (lane j))) (mk (ix4 b h w (lane j))) s.val (j.val / 64)

/-- The folded array as one function of its index. -/
def foldFn (upd : SIn.Idx → EReal) (mk : SIn.Idx → BitVec 32) : S8x128x2x128x128.Idx → EReal :=
  fun i => foldVal upd mk (i 0) (i 1) (i 2) (i 3) (i 4)

/-- A block of the body is the block of the folded array at the place `e` embeds it, when the input blocks are the
    argument arrays read at the matching pooled positions. -/
theorem blockFn_eq_foldFn (upd : SIn.Idx → EReal) (mk : SIn.Idx → BitVec 32)
    (x0 : Vec Ideal S1x64x128x64 .f32) (x1 : Vec Ideal S1x64x128x64 .i32)
    (e : S1x64x2x128x128.Idx → S8x128x2x128x128.Idx) (y : S1x64x2x128x128.Idx)
    (h0 : x0 (ix4 (0 : Fin 1) (y 1) (y 3) (lane (y 4))) = upd (ix4 (e y 0) (e y 1) (e y 3) (lane (e y 4))))
    (h1 : x1 (ix4 (0 : Fin 1) (y 1) (y 3) (lane (y 4))) = mk (ix4 (e y 0) (e y 1) (e y 3) (lane (e y 4))))
    (hs : (e y 2).val = (y 2).val) (hj : (e y 4).val / 64 = (y 4).val / 64) :
    blockFn x0 x1 y = foldFn upd mk (e y) := by
  unfold blockFn foldFn blkVal foldVal
  rw [h0, h1, hs, hj]

/-- The printed index maps, decided over the grid: the two input windows move with the output window on the batch
    and row-block axes, and every other block index is zero. -/
theorem idx_facts : ∀ t : Fin cfg0.N,
    win0_0.index t (0 : Fin 4) = win0_2.index t (0 : Fin 5) ∧ win0_0.index t (1 : Fin 4) = win0_2.index t (1 : Fin 5)
    ∧ win0_0.index t (2 : Fin 4) = 0 ∧ win0_0.index t (3 : Fin 4) = 0
    ∧ win0_1.index t (0 : Fin 4) = win0_2.index t (0 : Fin 5) ∧ win0_1.index t (1 : Fin 4) = win0_2.index t (1 : Fin 5)
    ∧ win0_1.index t (2 : Fin 4) = 0 ∧ win0_1.index t (3 : Fin 4) = 0
    ∧ win0_2.index t (2 : Fin 5) = 0 ∧ win0_2.index t (3 : Fin 5) = 0 ∧ win0_2.index t (4 : Fin 5) = 0
    ∧ win0_2.index t (0 : Fin 5) < 8 ∧ win0_2.index t (1 : Fin 5) < 2 :=
  (by decide +kernel : ∀ t : Fin grid0.N, _)

/-- Every (batch, row-block) pair is some point's output block. -/
theorem idx_onto : ∀ (q0 : Fin 8) (q1 : Fin 2), ∃ t : Fin cfg0.N, win0_2.index t = ![q0.val, q1.val, 0, 0, 0] :=
  (by decide +kernel : ∀ (q0 : Fin 8) (q1 : Fin 2), ∃ t : Fin grid0.N, win0_2.index t = ![q0.val, q1.val, 0, 0, 0])

/-- WHAT POINT `t` WRITES BACK is block `t` of the folded array of the argument arrays. -/
theorem flushed_eq (c : Dev nD) (t : Fin cfg0.N) :
    (dats m 0 c).flushed 2 t = ((cfg0.win 2).blk t).view.read (Elt Ideal) (foldFn (V m c main_arg0) (V m c main_arg1)) := by
  show (cfg0.win 2).cut (grid0.coords t) ((dats m 0 c).after 2 t) = _
  rw [after0_2, out_eq]
  obtain ⟨a0, a1, a2, a3, b0, b1, b2, b3, c2, c3, c4, c0, c1⟩ := idx_facts t
  funext y
  show blockFn (iblk m c 0 t) (iblk m c 1 t) y
    = foldFn (V m c main_arg0) (V m c main_arg1) (((cfg0.win 2).blk t).view.emb y)
  have hy0 : (y 0).val < 1 := (y 0).isLt
  have hy4 : (y 4).val < 128 := (y 4).isLt
  refine blockFn_eq_foldFn (V m c main_arg0) (V m c main_arg1) (iblk m c 0 t) (iblk m c 1 t)
    (fun y => ((cfg0.win 2).blk t).view.emb y) y ?_ ?_ ?_ ?_
  · show V m c main_arg0 (((cfg0.win 0).blk t).view.emb (ix4 (0 : Fin 1) (y 1) (y 3) (lane (y 4)))) = V m c main_arg0 _
    refine congrArg _ ?_
    funext a; apply Fin.ext
    match a with
    | ⟨0, _⟩ => show win0_0.index t (0 : Fin 4) * 1 + 1 * 0 = win0_2.index t (0 : Fin 5) * 1 + 1 * (y 0).val; omega
    | ⟨1, _⟩ => show win0_0.index t (1 : Fin 4) * 64 + 1 * (y 1).val = win0_2.index t (1 : Fin 5) * 64 + 1 * (y 1).val; omega
    | ⟨2, _⟩ => show win0_0.index t (2 : Fin 4) * 128 + 1 * (y 3).val = win0_2.index t (3 : Fin 5) * 128 + 1 * (y 3).val; omega
    | ⟨3, _⟩ => show win0_0.index t (3 : Fin 4) * 64 + 1 * ((y 4).val % 64) = (win0_2.index t (4 : Fin 5) * 128 + 1 * (y 4).val) % 64; omega
  · show V m c main_arg1 (((cfg0.win 1).blk t).view.emb (ix4 (0 : Fin 1) (y 1) (y 3) (lane (y 4)))) = V m c main_arg1 _
    refine congrArg _ ?_
    funext a; apply Fin.ext
    match a with
    | ⟨0, _⟩ => show win0_1.index t (0 : Fin 4) * 1 + 1 * 0 = win0_2.index t (0 : Fin 5) * 1 + 1 * (y 0).val; omega
    | ⟨1, _⟩ => show win0_1.index t (1 : Fin 4) * 64 + 1 * (y 1).val = win0_2.index t (1 : Fin 5) * 64 + 1 * (y 1).val; omega
    | ⟨2, _⟩ => show win0_1.index t (2 : Fin 4) * 128 + 1 * (y 3).val = win0_2.index t (3 : Fin 5) * 128 + 1 * (y 3).val; omega
    | ⟨3, _⟩ => show win0_1.index t (3 : Fin 4) * 64 + 1 * ((y 4).val % 64) = (win0_2.index t (4 : Fin 5) * 128 + 1 * (y 4).val) % 64; omega
  · show win0_2.index t (2 : Fin 5) * 2 + 1 * (y 2).val = (y 2).val; omega
  · show (win0_2.index t (4 : Fin 5) * 128 + 1 * (y 4).val) / 64 = (y 4).val / 64; omega

/-- An index of the folded array is in point `t`'s block iff each coordinate is in the block's range on its axis. -/
theorem mem_blk (t : Fin cfg0.N) (i : S8x128x2x128x128.Idx) :
    i ∈ ((cfg0.win 2).blk t).view.set ↔ ∀ a : Fin 5, win0_2.index t a * S1x64x2x128x128.size a ≤ (i a).val
      ∧ (i a).val < win0_2.index t a * S1x64x2x128x128.size a + S1x64x2x128x128.size a := by
  show i ∈ ((View.whole main_v0).slice (win0_2.rect t)).set ↔ _
  rw [View.set_slice_whole, Rect.mem_set_unit]
  exact Iff.rfl

/-- The output's blocks tile the folded array: the block that holds an index is the one at its batch and at the half of
    the pooled rows its row lies in. -/
theorem cover (i : S8x128x2x128x128.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 2 := (i 2).isLt
  have hi3 : (i 3).val < 128 := (i 3).isLt
  have hi4 : (i 4).val < 128 := (i 4).isLt
  obtain ⟨t, ht⟩ := idx_onto ⟨(i 0).val, hi0⟩ ⟨(i 1).val / 64, by omega⟩
  have q0 : win0_2.index t (0 : Fin 5) = (i 0).val := congrFun ht 0
  have q1 : win0_2.index t (1 : Fin 5) = (i 1).val / 64 := congrFun ht 1
  have q2 : win0_2.index t (2 : Fin 5) = 0 := congrFun ht 2
  have q3 : win0_2.index t (3 : Fin 5) = 0 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 64 ≤ (i 1).val ∧ (i 1).val < win0_2.index t (1 : Fin 5) * 64 + 64; omega
  | ⟨2, _⟩ => show win0_2.index t (2 : Fin 5) * 2 ≤ (i 2).val ∧ (i 2).val < win0_2.index t (2 : Fin 5) * 2 + 2; omega
  | ⟨3, _⟩ => show win0_2.index t (3 : Fin 5) * 128 ≤ (i 3).val ∧ (i 3).val < win0_2.index t (3 : Fin 5) * 128 + 128; omega
  | ⟨4, _⟩ => show win0_2.index t (4 : Fin 5) * 128 ≤ (i 4).val ∧ (i 4).val < win0_2.index t (4 : Fin 5) * 128 + 128; omega

/-- THE FOLDED ARRAY after the run: `foldFn` of the two argument arrays. -/
theorem final (c : Dev nD) :
    (dats m 0 c).arrAt 2 cfg0.N = foldFn (m ((c : Thread nD τ).loc main_arg0)) (m ((c : Thread nD τ).loc main_arg1)) :=
  (dats m 0 c).arrAt_eq_of_cover 2 (foldFn (V m c main_arg0) (V m c main_arg1)) (fun t _ => flushed_eq m c t) cover

end Cert.KernelIdeal.KArray

end
-- ==== Proof.KernelValue.lean ====
/- The kernel's run with its result named: every execution ends with the result array at the unpooled array
   `G` of the two argument arrays, whatever the index words are.

   After its one region the kernel reshapes the folded array [8, 128, 2, 128, 128] to [8, 256, 256, 64].  Row-major,
   the element (b, Y, X, c) of the result is the folded element at batch b, pooled row Y / 2, slab Y mod 2, pooled
   column X / 2 and lane (X mod 2) · 64 + c: the lane's feature is c and its half is X mod 2.  The folded array
   there holds the value of the pooled position (b, Y / 2, X / 2, c) if its index word's row bit is Y mod 2 and its
   column bit is X mod 2, and zero otherwise — which is `G` at (b, Y, X, c).  The two argument arrays are inputs
   of the region and are written by nothing, so they end as they began. -/
import proofs.«403514_j1082331758744_3_alg».proof.Proof.Gen.KernelIdeal.Frame
import proofs.«403514_j1082331758744_3_alg».proof.Proof.Spec
import proofs.«403514_j1082331758744_3_alg».proof.Proof.KernelArray
import Idealize.ShloMosaic.Lib.Tactic

set_option maxRecDepth 16384

noncomputable section

namespace Cert.KernelIdeal.KValue

open Idealize.ShloMosaic Idealize.ShloMosaic.ValueIdx Idealize.SL.Sem Cert.KernelIdeal
open Idealize.ShloMosaic.TcCoe
open Idealize.ShloMosaic.Pipeline (Dat)
open Cert.KernelIdeal.Gen Cert.KernelIdeal.KBlock Cert.KernelIdeal.KArray Cert.Unpool

/-- The host reshape of the folded array [8, 128, 2, 128, 128] to [8, 256, 256, 64] is the unpooled array: row-major, the
    element (b, Y, X, c) is the folded element (b, Y / 2, Y mod 2, X / 2, (X mod 2) · 64 + c), whose lane's feature is
    `c` and whose lane's half is `X mod 2`. -/
theorem reshape_fold (upd : SIn.Idx → EReal) (mk : SIn.Idx → BitVec 32) :
    shapeCast S8x256x256x64 (foldFn upd mk) shapeCasts_S8x128x2x128x128_S8x256x256x64 = Cert.Unpool.G upd mk := by
  funext i
  obtain ⟨b, Y, X, c, rfl⟩ : ∃ (b : Fin 8) (Y X : Fin 256) (c : Fin 64), i = ix4 b Y X c :=
    ⟨i 0, i 1, i 2, i 3, eq_ix4 i⟩
  have hb : b.val < 8 := b.isLt
  have hY : Y.val < 256 := Y.isLt
  have hX : X.val < 256 := X.isLt
  have hc : c.val < 64 := c.isLt
  refine (shapeCast_apply (foldFn upd mk) _ (ix4 b Y X c)
    (ix5 b (half Y) (⟨Y.val % 2, by omega⟩ : Fin 2) (half X) (⟨(X.val % 2) * 64 + c.val, by omega⟩ : Fin 128)) ?_).trans ?_
  · rw [Shape.rowMajor_val_five, Shape.rowMajor_val_four]
    show (((b.val * 128 + Y.val / 2) * 2 + Y.val % 2) * 128 + X.val / 2) * 128 + ((X.val % 2) * 64 + c.val)
      = ((b.val * 256 + Y.val) * 256 + X.val) * 64 + c.val
    omega
  · show foldVal upd mk b (half Y) (⟨Y.val % 2, by omega⟩ : Fin 2) (half X) (⟨(X.val % 2) * 64 + c.val, by omega⟩ : Fin 128)
      = G4 upd mk b Y X c
    have hl : lane (⟨(X.val % 2) * 64 + c.val, by omega⟩ : Fin 128) = c :=
      Fin.ext (by show ((X.val % 2) * 64 + c.val) % 64 = c.val; omega)
    have hq : ((X.val % 2) * 64 + c.val) / 64 = X.val % 2 := by omega
    unfold foldVal G4 pick
    rw [hl]
    dsimp only
    rw [hq]

/-- The result of the host reshape after the region: the unpooled array of the two arguments. -/
theorem tail_eq (m : (ℓ : Loc nD τ sig) → Buf (Elt Ideal) ℓ) (c : Dev nD) :
    Pipeline.afterTail₀ cfgs (dats m) 0 (V0 m) [hostOps1] c main_v1
      = Cert.Unpool.G (m ((c.tc : Thread nD τ).loc main_arg0)) (m ((c.tc : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = foldFn (m ((c.tc : Thread nD τ).loc main_arg0)) (m ((c.tc : Thread nD τ).loc main_arg1)) :=
    (Pipeline.withArrays_arr spec0 launch0.win.arr_inj c _ _ 2).trans (final m c)
  rw [e]
  exact reshape_fold _ _

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = Cert.Unpool.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefIdx.lean ====
/- The start indices the reference scatters at, as one function of the index words — the operations between the
   index words and the scatter, composed — and that function read at a position and a component. -/
import proofs.«403514_j1082331758744_3_alg».proof.Proof.Gen.ReferenceIdeal
import proofs.«403514_j1082331758744_3_alg».proof.Proof.Spec

noncomputable section

namespace Cert.ReferenceIdeal.RefRun

open Idealize.ShloMosaic Idealize.ShloMosaic.ValueIdx Cert.ReferenceIdeal
open Cert.ReferenceIdeal.Facts₀

/-- The floored quotient of every word of `x` by the one word of `d`: the operations of the outlined function
    `floor_divide`, one `let` per operation, in its order. -/
def floorDivide (x : IVec S8x128x128x64 32) (d : IVec S_ 32) : IVec S8x128x128x64 32 :=
  let v0 : IVec S_ 32 := id d
  let v1 : IVec S8x128x128x64 32 := broadcastInDim S8x128x128x64 ![] bcast_S_S8x128x128x64 v0
  let v2 : IVec S8x128x128x64 32 := Host.divsi x v1
  let v3 : IVec S8x128x128x64 32 := signi x
  let v4 : IVec S_ 32 := signi v0
  let v5 : IVec S8x128x128x64 32 := broadcastInDim S8x128x128x64 ![] bcast_S_S8x128x128x64 v4
  let v6 : IVec S8x128x128x64 1 := cmpi .ne v3 v5
  let v7 : IVec S8x128x128x64 32 := broadcastInDim S8x128x128x64 ![] bcast_S_S8x128x128x64 v0
  let v8 : IVec S8x128x128x64 32 := Host.remsi x v7
  let c : IVec S_ 32 := constantI S_ 32 0#32
  let v9 : IVec S8x128x128x64 32 := broadcastInDim S8x128x128x64 ![] bcast_S_S8x128x128x64 c
  let v10 : IVec S8x128x128x64 1 := cmpi .ne v8 v9
  let v11 : IVec S8x128x128x64 1 := andi v6 v10
  let c_0 : IVec S_ 32 := constantI S_ 32 1#32
  let v12 : IVec S8x128x128x64 32 := broadcastInDim S8x128x128x64 ![] bcast_S_S8x128x128x64 c_0
  let v13 : IVec S8x128x128x64 32 := subi v2 v12
  select v11 v13 v2

/-- The floored remainder of every word of `x` by the one word of `d` (1 in place of a zero divisor): the operations
    of the outlined function `remainder`, one `let` per operation, in its order. -/
def remainderFn (x : IVec S8x128x128x64 32) (d : IVec S_ 32) : IVec S8x128x128x64 32 :=
  let v0 : IVec S_ 32 := id d
  let c : IVec S_ 32 := constantI S_ 32 0#32
  let v1 : IVec S_ 1 := cmpi .eq v0 c
  let c_0 : IVec S_ 32 := constantI S_ 32 1#32
  let v2 : IVec S_ 32 := select v1 c_0 v0
  let v3 : IVec S8x128x128x64 32 := broadcastInDim S8x128x128x64 ![] bcast_S_S8x128x128x64 v2
  let v4 : IVec S8x128x128x64 32 := Host.remsi x v3
  let c_1 : IVec S_ 32 := constantI S_ 32 0#32
  let v5 : IVec S8x128x128x64 32 := broadcastInDim S8x128x128x64 ![] bcast_S_S8x128x128x64 c_1
  let v6 : IVec S8x128x128x64 1 := cmpi .ne v4 v5
  let c_2 : IVec S_ 32 := constantI S_ 32 0#32
  let v7 : IVec S8x128x128x64 32 := broadcastInDim S8x128x128x64 ![] bcast_S_S8x128x128x64 c_2
  let v8 : IVec S8x128x128x64 1 := cmpi .slt v4 v7
  let c_3 : IVec S_ 32 := constantI S_ 32 0#32
  let v9 : IVec S_ 1 := cmpi .slt v2 c_3
  let v10 : IVec S8x128x128x64 1 := broadcastInDim S8x128x128x64 ![] bcast_S_S8x128x128x64 v9
  let v11 : IVec S8x128x128x64 1 := cmpi .ne v8 v10
  let v12 : IVec S8x128x128x64 1 := andi v11 v6
  let v13 : IVec S8x128x128x64 32 := broadcastInDim S8x128x128x64 ![] bcast_S_S8x128x128x64 v2
  let v14 : IVec S8x128x128x64 32 := addi v4 v13
  select v12 v14 v4

/-- The start indices as a function of the index words: the reference's operations from the index words to the
    start-index array, one `let` per operation, in its order (the two outlined functions at their calls). -/
def refIdx (mk : IVec S8x128x128x64 32) : IVec S8x128x128x64x4 32 :=
  let main_c : IVec S_ 32 := constantI S_ 32 16384#32
  let main_v0 : IVec S8x128x128x64 32 := floorDivide mk main_c
  let main_c_0 : IVec S_ 32 := constantI S_ 32 64#32
  let main_v1 : IVec S8x128x128x64 32 := floorDivide mk main_c_0
  let main_c_1 : IVec S_ 32 := constantI S_ 32 256#32
  let main_v2 : IVec S8x128x128x64 32 := remainderFn main_v1 main_c_1
  let main_v3 : IVec S8 32 := iotaInDim S8 32 0
  let main_v4 : IVec S8x1x1x1 32 := broadcastInDim S8x1x1x1 ![0] bcast_S8_S8x1x1x1_0 main_v3
  let main_v5 : IVec S64 32 := iotaInDim S64 32 0
  let main_v6 : IVec S1x1x1x64 32 := broadcastInDim S1x1x1x64 ![3] bcast_S64_S1x1x1x64_3 main_v5
  let main_c_2 : IVec S_ 32 := constantI S_ 32 0#32
  let main_v8 : IVec S8x1x1x1 32 := broadcastInDim S8x1x1x1 ![] bcast_S_S8x1x1x1 main_c_2
  let main_v9 : IVec S8x1x1x1 1 := cmpi .slt main_v4 main_v8
  let main_c_3 : IVec S_ 32 := constantI S_ 32 8#32
  let main_v10 : IVec S8x1x1x1 32 := broadcastInDim S8x1x1x1 ![] bcast_S_S8x1x1x1 main_c_3
  let main_v11 : IVec S8x1x1x1 32 := addi main_v4 main_v10
  let main_v12 : IVec S8x1x1x1 32 := select main_v9 main_v11 main_v4
  let main_c_4 : IVec S_ 32 := constantI S_ 32 0#32
  let main_v13 : IVec S8x128x128x64 32 := broadcastInDim S8x128x128x64 ![] bcast_S_S8x128x128x64 main_c_4
  let main_v14 : IVec S8x128x128x64 1 := cmpi .slt main_v0 main_v13
  let main_c_5 : IVec S_ 32 := constantI S_ 32 256#32
  let main_v15 : IVec S8x128x128x64 32 := broadcastInDim S8x128x128x64 ![] bcast_S_S8x128x128x64 main_c_5
  let main_v16 : IVec S8x128x128x64 32 := addi main_v0 main_v15
  let main_v17 : IVec S8x128x128x64 32 := select main_v14 main_v16 main_v0
  let main_c_6 : IVec S_ 32 := constantI S_ 32 0#32
  let main_v18 : IVec S8x128x128x64 32 := broadcastInDim S8x128x128x64 ![] bcast_S_S8x128x128x64 main_c_6
  let main_v19 : IVec S8x128x128x64 1 := cmpi .slt main_v2 main_v18
  let main_c_7 : IVec S_ 32 := constantI S_ 32 256#32
  let main_v20 : IVec S8x128x128x64 32 := broadcastInDim S8x128x128x64 ![] bcast_S_S8x128x128x64 main_c_7
  let main_v21 : IVec S8x128x128x64 32 := addi main_v2 main_v20
  let main_v22 : IVec S8x128x128x64 32 := select main_v19 main_v21 main_v2
  let main_c_8 : IVec S_ 32 := constantI S_ 32 0#32
  let main_v23 : IVec S1x1x1x64 32 := broadcastInDim S1x1x1x64 ![] bcast_S_S1x1x1x64 main_c_8
  let main_v24 : IVec S1x1x1x64 1 := cmpi .slt main_v6 main_v23
  let main_c_9 : IVec S_ 32 := constantI S_ 32 64#32
  let main_v25 : IVec S1x1x1x64 32 := broadcastInDim S1x1x1x64 ![] bcast_S_S1x1x1x64 main_c_9
  let main_v26 : IVec S1x1x1x64 32 := addi main_v6 main_v25
  let main_v27 : IVec S1x1x1x64 32 := select main_v24 main_v26 main_v6
  let main_v28 : IVec S8x128x128x64 32 :=
    broadcastInDim S8x128x128x64 ![0, 1, 2, 3] bcast_S8x1x1x1_S8x128x128x64_0_1_2_3 main_v12
  let main_v29 : IVec S8x128x128x64 32 :=
    broadcastInDim S8x128x128x64 ![0, 1, 2, 3] bcast_S1x1x1x64_S8x128x128x64_0_1_2_3 main_v27
  have main_v30 : IVec S8x128x128x64x1 32 :=
    broadcastInDim S8x128x128x64x1 ![0, 1, 2, 3] bcast_S8x128x128x64_S8x128x128x64x1_0_1_2_3 main_v28
  have main_v31 : IVec S8x128x128x64x1 32 :=
    broadcastInDim S8x128x128x64x1 ![0, 1, 2, 3] bcast_S8x128x128x64_S8x128x128x64x1_0_1_2_3 main_v17
  have main_v32 : IVec S8x128x128x64x1 32 :=
    broadcastInDim S8x128x128x64x1 ![0, 1, 2, 3] bcast_S8x128x128x64_S8x128x128x64x1_0_1_2_3 main_v22
  have main_v33 : IVec S8x128x128x64x1 32 :=
    broadcastInDim S8x128x128x64x1 ![0, 1, 2, 3] bcast_S8x128x128x64_S8x128x128x64x1_0_1_2_3 main_v29
  concatenate S8x128x128x64x4 4
    [⟨S8x128x128x64x1, main_v30⟩, ⟨S8x128x128x64x1, main_v31⟩, ⟨S8x128x128x64x1, main_v32⟩, ⟨S8x128x128x64x1, main_v33⟩]
    concatenates_S8x128x128x64x1_S8x128x128x64x1_S8x128x128x64x1_S8x128x128x64x1_S8x128x128x64x4_d4

/-! ### The layout operations read at a position

A broadcast read at an index is its operand at the index whose coordinates are the result's on the axes the broadcast
names and 0 on the operand's unit axes; the concatenation of four unit pieces along the last axis, read at component
`k`, is piece `k`. Each is stated over explicit coordinates. -/

/-- A rank-4 array given a trailing unit axis reads the array at the first four coordinates. -/
theorem bcast_unit_apply (x : IVec S8x128x128x64 32) (b : Fin 8) (h w : Fin 128) (c : Fin 64) (e : Fin 1) :
    broadcastInDim S8x128x128x64x1 ![0, 1, 2, 3] bcast_S8x128x128x64_S8x128x128x64x1_0_1_2_3 x (ix5 b h w c e)
      = x (ix4 b h w c) := by
  unfold broadcastInDim
  refine congrArg x (funext fun a => ?_)
  match a with
  | ⟨0, _⟩ => rfl
  | ⟨1, _⟩ => rfl
  | ⟨2, _⟩ => rfl
  | ⟨3, _⟩ => rfl

/-- A per-batch array broadcast over rows, columns and features reads the batch's entry. -/
theorem bcast_batch_apply (x : IVec S8x1x1x1 32) (b : Fin 8) (h w : Fin 128) (c : Fin 64) :
    broadcastInDim S8x128x128x64 ![0, 1, 2, 3] bcast_S8x1x1x1_S8x128x128x64_0_1_2_3 x (ix4 b h w c)
      = x (ix4 b 0 0 0) := by
  unfold broadcastInDim
  refine congrArg x (funext fun a => ?_)
  match a with
  | ⟨0, _⟩ => rfl
  | ⟨1, _⟩ => rfl
  | ⟨2, _⟩ => rfl
  | ⟨3, _⟩ => rfl

/-- A per-feature array broadcast over batches, rows and columns reads the feature's entry. -/
theorem bcast_feature_apply (x : IVec S1x1x1x64 32) (b : Fin 8) (h w : Fin 128) (c : Fin 64) :
    broadcastInDim S8x128x128x64 ![0, 1, 2, 3] bcast_S1x1x1x64_S8x128x128x64_0_1_2_3 x (ix4 b h w c)
      = x (ix4 0 0 0 c) := by
  unfold broadcastInDim
  refine congrArg x (funext fun a => ?_)
  match a with
  | ⟨0, _⟩ => rfl
  | ⟨1, _⟩ => rfl
  | ⟨2, _⟩ => rfl
  | ⟨3, _⟩ => rfl

/-- The concatenation of four unit pieces along the last axis, read at component `k`, is piece `k` at the same
    position. -/
theorem cat4_apply (x0 x1 x2 x3 : IVec S8x128x128x64x1 32) (b : Fin 8) (h w : Fin 128) (c : Fin 64) (k : Fin 4) :
    concatenate S8x128x128x64x4 4
        [⟨S8x128x128x64x1, x0⟩, ⟨S8x128x128x64x1, x1⟩, ⟨S8x128x128x64x1, x2⟩, ⟨S8x128x128x64x1, x3⟩]
        concatenates_S8x128x128x64x1_S8x128x128x64x1_S8x128x128x64x1_S8x128x128x64x1_S8x128x128x64x4_d4 (ix5 b h w c k)
      = (match k with | ⟨0, _⟩ => x0 | ⟨1, _⟩ => x1 | ⟨2, _⟩ => x2 | ⟨3, _⟩ => x3) (ix5 b h w c 0) := by
  match k with
  | ⟨0, _⟩ =>
    show x0 _ = x0 _
    refine congrArg x0 (funext fun a => ?_)
    match a with
    | ⟨0, _⟩ => rfl
    | ⟨1, _⟩ => rfl
    | ⟨2, _⟩ => rfl
    | ⟨3, _⟩ => rfl
    | ⟨4, _⟩ => rfl
  | ⟨1, _⟩ =>
    show x1 _ = x1 _
    refine congrArg x1 (funext fun a => ?_)
    match a with
    | ⟨0, _⟩ => rfl
    | ⟨1, _⟩ => rfl
    | ⟨2, _⟩ => rfl
    | ⟨3, _⟩ => rfl
    | ⟨4, _⟩ => rfl
  | ⟨2, _⟩ =>
    show x2 _ = x2 _
    refine congrArg x2 (funext fun a => ?_)
    match a with
    | ⟨0, _⟩ => rfl
    | ⟨1, _⟩ => rfl
    | ⟨2, _⟩ => rfl
    | ⟨3, _⟩ => rfl
    | ⟨4, _⟩ => rfl
  | ⟨3, _⟩ =>
    show x3 _ = x3 _
    refine congrArg x3 (funext fun a => ?_)
    match a with
    | ⟨0, _⟩ => rfl
    | ⟨1, _⟩ => rfl
    | ⟨2, _⟩ => rfl
    | ⟨3, _⟩ => rfl
    | ⟨4, _⟩ => rfl

theorem refIdx_apply (mk : IVec S8x128x128x64 32) (b : Fin 8) (h w : Fin 128) (c : Fin 64) (k : Fin 4) :
    refIdx mk (ix5 b h w c k) = Cert.Unpool.idxWord mk b h w c k := by
  refine (cat4_apply _ _ _ _ b h w c k).trans ?_
  match k with
  | ⟨0, _⟩ =>
    refine (bcast_unit_apply _ b h w c 0).trans ?_
    refine (bcast_batch_apply _ b h w c).trans ?_
    rfl
  | ⟨1, _⟩ =>
    refine (bcast_unit_apply _ b h w c 0).trans ?_
    rfl
  | ⟨2, _⟩ =>
    refine (bcast_unit_apply _ b h w c 0).trans ?_
    rfl
  | ⟨3, _⟩ =>
    refine (bcast_unit_apply _ b h w c 0).trans ?_
    refine (bcast_feature_apply _ b h w c).trans ?_
    rfl

end Cert.ReferenceIdeal.RefRun

end
-- ==== Proof.RefRun.lean ====
/- The reference's run: its operations in order, the outlined functions unfolded at their calls; every execution
   ends with the result at the accumulating scatter of the pooled values into zeros at the start indices
   `refIdx` of the index words, and with the arguments unchanged.

   The hundred operations are listed as five consecutive stretches — the first floored quotient, the second, the
   floored remainder, the counters with the four readings of a negative index and the broadcasts, and last the
   concatenation with the scatter. The fold over the whole line is the folds over the stretches in turn, so the
   result is read stretch by stretch: each stretch's value at the buffers the later ones read is a composed term of
   what it found at the buffers it reads, and every other buffer of interest it leaves as it was. Put together,
   the start indices are the floored quotient by 16384 for the row and the floored remainder by 256 of the floored
   quotient by 64 for the column, each read as an index into its axis, between the batch and feature counters:
   the function `refIdx`, by unfolding both. -/
import proofs.«403514_j1082331758744_3_alg».proof.Proof.RefIdx
import Idealize.ShloMosaic.Lib.StableHlo.Run

noncomputable section

namespace Cert.ReferenceIdeal.RefRun

open Idealize.ShloMosaic Idealize.ShloMosaic.ValueIdx Idealize.SL.Sem Cert.ReferenceIdeal
open Cert.ReferenceIdeal.Facts₀

section Line

open Idealize.ShloMosaic.StableHlo Idealize.ShloMosaic.TcCoe

variable {F : FTy → Type} [FloatOps F]

/-- The floored quotient of every index word by the scalar word `d`, as @floor_divide's operations compose it: the
    truncating quotient, less one where the signs of word and divisor differ and the truncating remainder is not zero. -/
def fdivTerm (x : IVec S8x128x128x64 32) (d : IVec S_ 32) : IVec S8x128x128x64 32 :=
  select
    (andi (cmpi .ne (signi x) (broadcastInDim S8x128x128x64 ![] bcast_S_S8x128x128x64 (signi d)))
      (cmpi .ne (Host.remsi x (broadcastInDim S8x128x128x64 ![] bcast_S_S8x128x128x64 d))
        (broadcastInDim S8x128x128x64 ![] bcast_S_S8x128x128x64 (constantI S_ 32 0#32))))
    (subi (Host.divsi x (broadcastInDim S8x128x128x64 ![] bcast_S_S8x128x128x64 d))
      (broadcastInDim S8x128x128x64 ![] bcast_S_S8x128x128x64 (constantI S_ 32 1#32)))
    (Host.divsi x (broadcastInDim S8x128x128x64 ![] bcast_S_S8x128x128x64 d))

/-- The divisor a floored remainder divides by: 1 in place of 0. -/
def safeTerm (d : IVec S_ 32) : IVec S_ 32 :=
  select (cmpi .eq d (constantI S_ 32 0#32)) (constantI S_ 32 1#32) d

/-- The floored remainder of every word by the scalar word `d`, as @remainder's operations compose it: the
    truncating remainder, the divisor added where it is not zero and its sign is not the divisor's. -/
def remTerm (x : IVec S8x128x128x64 32) (d : IVec S_ 32) : IVec S8x128x128x64 32 :=
  select
    (andi
      (cmpi .ne
        (cmpi .slt (Host.remsi x (broadcastInDim S8x128x128x64 ![] bcast_S_S8x128x128x64 (safeTerm d)))
          (broadcastInDim S8x128x128x64 ![] bcast_S_S8x128x128x64 (constantI S_ 32 0#32)))
        (broadcastInDim S8x128x128x64 ![] bcast_S_S8x128x128x64 (cmpi .slt (safeTerm d) (constantI S_ 32 0#32))))
      (cmpi .ne (Host.remsi x (broadcastInDim S8x128x128x64 ![] bcast_S_S8x128x128x64 (safeTerm d)))
        (broadcastInDim S8x128x128x64 ![] bcast_S_S8x128x128x64 (constantI S_ 32 0#32))))
    (addi (Host.remsi x (broadcastInDim S8x128x128x64 ![] bcast_S_S8x128x128x64 (safeTerm d)))
      (broadcastInDim S8x128x128x64 ![] bcast_S_S8x128x128x64 (safeTerm d)))
    (Host.remsi x (broadcastInDim S8x128x128x64 ![] bcast_S_S8x128x128x64 (safeTerm d)))

/-- The batch counter along axis 0, read as an index into an axis of extent 8. -/
def batchTerm : IVec S8x1x1x1 32 :=
  select
    (cmpi .slt (broadcastInDim S8x1x1x1 ![0] bcast_S8_S8x1x1x1_0 (iotaInDim S8 32 0))
      (broadcastInDim S8x1x1x1 ![] bcast_S_S8x1x1x1 (constantI S_ 32 0#32)))
    (addi (broadcastInDim S8x1x1x1 ![0] bcast_S8_S8x1x1x1_0 (iotaInDim S8 32 0))
      (broadcastInDim S8x1x1x1 ![] bcast_S_S8x1x1x1 (constantI S_ 32 8#32)))
    (broadcastInDim S8x1x1x1 ![0] bcast_S8_S8x1x1x1_0 (iotaInDim S8 32 0))

/-- The feature counter along axis 3, read as an index into an axis of extent 64. -/
def featTerm : IVec S1x1x1x64 32 :=
  select
    (cmpi .slt (broadcastInDim S1x1x1x64 ![3] bcast_S64_S1x1x1x64_3 (iotaInDim S64 32 0))
      (broadcastInDim S1x1x1x64 ![] bcast_S_S1x1x1x64 (constantI S_ 32 0#32)))
    (addi (broadcastInDim S1x1x1x64 ![3] bcast_S64_S1x1x1x64_3 (iotaInDim S64 32 0))
      (broadcastInDim S1x1x1x64 ![] bcast_S_S1x1x1x64 (constantI S_ 32 64#32)))
    (broadcastInDim S1x1x1x64 ![3] bcast_S64_S1x1x1x64_3 (iotaInDim S64 32 0))

/-- A row or column word read as an index into an axis of extent 256. -/
def wrapTerm (x : IVec S8x128x128x64 32) : IVec S8x128x128x64 32 :=
  select (cmpi .slt x (broadcastInDim S8x128x128x64 ![] bcast_S_S8x128x128x64 (constantI S_ 32 0#32)))
    (addi x (broadcastInDim S8x128x128x64 ![] bcast_S_S8x128x128x64 (constantI S_ 32 256#32))) x

/-- The start indices assembled from the row words `q` and the column words `r`: batch, row, column and feature, each
    as one component along a fifth axis. -/
def asmTerm (q r : IVec S8x128x128x64 32) : IVec S8x128x128x64x4 32 :=
  concatenate S8x128x128x64x4 4
    [⟨S8x128x128x64x1, broadcastInDim S8x128x128x64x1 ![0, 1, 2, 3] bcast_S8x128x128x64_S8x128x128x64x1_0_1_2_3
        (broadcastInDim S8x128x128x64 ![0, 1, 2, 3] bcast_S8x1x1x1_S8x128x128x64_0_1_2_3 batchTerm)⟩,
     ⟨S8x128x128x64x1, broadcastInDim S8x128x128x64x1 ![0, 1, 2, 3] bcast_S8x128x128x64_S8x128x128x64x1_0_1_2_3 (wrapTerm q)⟩,
     ⟨S8x128x128x64x1, broadcastInDim S8x128x128x64x1 ![0, 1, 2, 3] bcast_S8x128x128x64_S8x128x128x64x1_0_1_2_3 (wrapTerm r)⟩,
     ⟨S8x128x128x64x1, broadcastInDim S8x128x128x64x1 ![0, 1, 2, 3] bcast_S8x128x128x64_S8x128x128x64x1_0_1_2_3
        (broadcastInDim S8x128x128x64 ![0, 1, 2, 3] bcast_S1x1x1x64_S8x128x128x64_0_1_2_3 featTerm)⟩]
    concatenates_S8x128x128x64x1_S8x128x128x64x1_S8x128x128x64x1_S8x128x128x64x1_S8x128x128x64x4_d4

/-- The start indices as the operations compose them from the index words: the row is the floored quotient by 16384,
    the column the floored remainder by 256 of the floored quotient by 64. -/
def idxTerm (mk : IVec S8x128x128x64 32) : IVec S8x128x128x64x4 32 :=
  asmTerm (fdivTerm mk (constantI S_ 32 16384#32)) (remTerm (fdivTerm mk (constantI S_ 32 64#32)) (constantI S_ 32 256#32))

/-- The first floored quotient: the divisor 16384 and @floor_divide's operations over its first call's buffers. -/
abbrev opsA : List (HloOp τ sig (Elt F)) :=
  [ StableHlo.nullary main_c (constantI S_ 32 16384#32),
    StableHlo.TRef.unary (.of main_c) main_call0.v0 id,
    StableHlo.TRef.unary main_call0.v0 main_call0.v1 (broadcastInDim S8x128x128x64 ![] bcast_S_S8x128x128x64),
    StableHlo.TRef.binary (.of main_arg1) main_call0.v1 main_call0.v2 Host.divsi,
    StableHlo.TRef.unary (.of main_arg1) main_call0.v3 signi,
    StableHlo.TRef.unary main_call0.v0 main_call0.v4 signi,
    StableHlo.TRef.unary main_call0.v4 main_call0.v5 (broadcastInDim S8x128x128x64 ![] bcast_S_S8x128x128x64),
    StableHlo.TRef.binary main_call0.v3 main_call0.v5 main_call0.v6 (cmpi .ne),
    StableHlo.TRef.unary main_call0.v0 main_call0.v7 (broadcastInDim S8x128x128x64 ![] bcast_S_S8x128x128x64),
    StableHlo.TRef.binary (.of main_arg1) main_call0.v7 main_call0.v8 Host.remsi,
    StableHlo.TRef.nullary main_call0.c (constantI S_ 32 0#32),
    StableHlo.TRef.unary main_call0.c main_call0.v9 (broadcastInDim S8x128x128x64 ![] bcast_S_S8x128x128x64),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8x128x128x64 ![] bcast_S_S8x128x128x64),
    StableHlo.TRef.binary main_call0.v2 main_call0.v12 main_call0.v13 subi,
    StableHlo.TRef.ternary main_call0.v11 main_call0.v13 main_call0.v2 main_call0.call0.v0 select ]

/-- The second floored quotient: the divisor 64 and @floor_divide's operations over its second call's buffers. -/
abbrev opsB : List (HloOp τ sig (Elt F)) :=
  [ StableHlo.nullary main_c_0 (constantI S_ 32 64#32),
    StableHlo.TRef.unary (.of main_c_0) main_call1.v0 id,
    StableHlo.TRef.unary main_call1.v0 main_call1.v1 (broadcastInDim S8x128x128x64 ![] bcast_S_S8x128x128x64),
    StableHlo.TRef.binary (.of main_arg1) main_call1.v1 main_call1.v2 Host.divsi,
    StableHlo.TRef.unary (.of main_arg1) main_call1.v3 signi,
    StableHlo.TRef.unary main_call1.v0 main_call1.v4 signi,
    StableHlo.TRef.unary main_call1.v4 main_call1.v5 (broadcastInDim S8x128x128x64 ![] bcast_S_S8x128x128x64),
    StableHlo.TRef.binary main_call1.v3 main_call1.v5 main_call1.v6 (cmpi .ne),
    StableHlo.TRef.unary main_call1.v0 main_call1.v7 (broadcastInDim S8x128x128x64 ![] bcast_S_S8x128x128x64),
    StableHlo.TRef.binary (.of main_arg1) main_call1.v7 main_call1.v8 Host.remsi,
    StableHlo.TRef.nullary main_call1.c (constantI S_ 32 0#32),
    StableHlo.TRef.unary main_call1.c main_call1.v9 (broadcastInDim S8x128x128x64 ![] bcast_S_S8x128x128x64),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S8x128x128x64 ![] bcast_S_S8x128x128x64),
    StableHlo.TRef.binary main_call1.v2 main_call1.v12 main_call1.v13 subi,
    StableHlo.TRef.ternary main_call1.v11 main_call1.v13 main_call1.v2 main_call1.call0.v0 select ]

/-- The floored remainder of the second quotient: the divisor 256 and @remainder's operations over its call's buffers. -/
abbrev opsC : List (HloOp τ sig (Elt F)) :=
  [ StableHlo.nullary main_c_1 (constantI S_ 32 256#32),
    StableHlo.TRef.unary (.of main_c_1) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8x128x128x64 ![] bcast_S_S8x128x128x64),
    StableHlo.TRef.binary (.of main_v1) main_call2.v3 main_call2.v4 Host.remsi,
    StableHlo.TRef.nullary main_call2.c_1 (constantI S_ 32 0#32),
    StableHlo.TRef.unary main_call2.c_1 main_call2.v5 (broadcastInDim S8x128x128x64 ![] bcast_S_S8x128x128x64),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8x128x128x64 ![] bcast_S_S8x128x128x64),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8x128x128x64 ![] bcast_S_S8x128x128x64),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8x128x128x64 ![] bcast_S_S8x128x128x64),
    StableHlo.TRef.binary main_call2.v4 main_call2.v13 main_call2.v14 addi,
    StableHlo.TRef.ternary main_call2.v12 main_call2.v14 main_call2.v4 main_call2.v15 select ]

/-- The batch and feature counters, the zeros, the four readings of a negative index from the end, and the broadcasts
    to one component each. -/
abbrev opsD1 : List (HloOp τ sig (Elt F)) :=
  [ StableHlo.nullary main_v3 (iotaInDim S8 32 0),
    StableHlo.unary main_v3 main_v4 (broadcastInDim S8x1x1x1 ![0] bcast_S8_S8x1x1x1_0 : (⟨S8, .i32⟩ : BufTy).Contents (Elt F) → (⟨S8x1x1x1, .i32⟩ : BufTy).Contents (Elt F)),
    StableHlo.nullary main_v5 (iotaInDim S64 32 0),
    StableHlo.unary main_v5 main_v6 (broadcastInDim S1x1x1x64 ![3] bcast_S64_S1x1x1x64_3 : (⟨S64, .i32⟩ : BufTy).Contents (Elt F) → (⟨S1x1x1x64, .i32⟩ : BufTy).Contents (Elt F)),
    StableHlo.nullary main_cst (constant S_ .f32 0x00000000#32),
    StableHlo.unary main_cst main_v7 (broadcastInDim S8x256x256x64 ![] bcast_S_S8x256x256x64 : (⟨S_, .f32⟩ : BufTy).Contents (Elt F) → (⟨S8x256x256x64, .f32⟩ : BufTy).Contents (Elt F)),
    StableHlo.nullary main_c_2 (constantI S_ 32 0#32),
    StableHlo.unary main_c_2 main_v8 (broadcastInDim S8x1x1x1 ![] bcast_S_S8x1x1x1 : (⟨S_, .i32⟩ : BufTy).Contents (Elt F) → (⟨S8x1x1x1, .i32⟩ : BufTy).Contents (Elt F)),
    StableHlo.binary main_v4 main_v8 main_v9 (cmpi .slt : (⟨S8x1x1x1, .i32⟩ : BufTy).Contents (Elt F) → (⟨S8x1x1x1, .i32⟩ : BufTy).Contents (Elt F) → (⟨S8x1x1x1, .i1⟩ : BufTy).Contents (Elt F)),
    StableHlo.nullary main_c_3 (constantI S_ 32 8#32),
    StableHlo.unary main_c_3 main_v10 (broadcastInDim S8x1x1x1 ![] bcast_S_S8x1x1x1 : (⟨S_, .i32⟩ : BufTy).Contents (Elt F) → (⟨S8x1x1x1, .i32⟩ : BufTy).Contents (Elt F)),
    StableHlo.binary main_v4 main_v10 main_v11 (addi : (⟨S8x1x1x1, .i32⟩ : BufTy).Contents (Elt F) → (⟨S8x1x1x1, .i32⟩ : BufTy).Contents (Elt F) → (⟨S8x1x1x1, .i32⟩ : BufTy).Contents (Elt F)),
    StableHlo.ternary main_v9 main_v11 main_v4 main_v12 (select : (⟨S8x1x1x1, .i1⟩ : BufTy).Contents (Elt F) → (⟨S8x1x1x1, .i32⟩ : BufTy).Contents (Elt F) → (⟨S8x1x1x1, .i32⟩ : BufTy).Contents (Elt F) → (⟨S8x1x1x1, .i32⟩ : BufTy).Contents (Elt F)),
    StableHlo.nullary main_c_4 (constantI S_ 32 0#32),
    StableHlo.unary main_c_4 main_v13 (broadcastInDim S8x128x128x64 ![] bcast_S_S8x128x128x64 : (⟨S_, .i32⟩ : BufTy).Contents (Elt F) → (⟨S8x128x128x64, .i32⟩ : BufTy).Contents (Elt F)),
    StableHlo.binary main_v0 main_v13 main_v14 (cmpi .slt : (⟨S8x128x128x64, .i32⟩ : BufTy).Contents (Elt F) → (⟨S8x128x128x64, .i32⟩ : BufTy).Contents (Elt F) → (⟨S8x128x128x64, .i1⟩ : BufTy).Contents (Elt F)),
    StableHlo.nullary main_c_5 (constantI S_ 32 256#32),
    StableHlo.unary main_c_5 main_v15 (broadcastInDim S8x128x128x64 ![] bcast_S_S8x128x128x64 : (⟨S_, .i32⟩ : BufTy).Contents (Elt F) → (⟨S8x128x128x64, .i32⟩ : BufTy).Contents (Elt F)),
    StableHlo.binary main_v0 main_v15 main_v16 (addi : (⟨S8x128x128x64, .i32⟩ : BufTy).Contents (Elt F) → (⟨S8x128x128x64, .i32⟩ : BufTy).Contents (Elt F) → (⟨S8x128x128x64, .i32⟩ : BufTy).Contents (Elt F)),
    StableHlo.ternary main_v14 main_v16 main_v0 main_v17 (select : (⟨S8x128x128x64, .i1⟩ : BufTy).Contents (Elt F) → (⟨S8x128x128x64, .i32⟩ : BufTy).Contents (Elt F) → (⟨S8x128x128x64, .i32⟩ : BufTy).Contents (Elt F) → (⟨S8x128x128x64, .i32⟩ : BufTy).Contents (Elt F)),
    StableHlo.nullary main_c_6 (constantI S_ 32 0#32),
    StableHlo.unary main_c_6 main_v18 (broadcastInDim S8x128x128x64 ![] bcast_S_S8x128x128x64 : (⟨S_, .i32⟩ : BufTy).Contents (Elt F) → (⟨S8x128x128x64, .i32⟩ : BufTy).Contents (Elt F)),
    StableHlo.binary main_v2 main_v18 main_v19 (cmpi .slt : (⟨S8x128x128x64, .i32⟩ : BufTy).Contents (Elt F) → (⟨S8x128x128x64, .i32⟩ : BufTy).Contents (Elt F) → (⟨S8x128x128x64, .i1⟩ : BufTy).Contents (Elt F)),
    StableHlo.nullary main_c_7 (constantI S_ 32 256#32),
    StableHlo.unary main_c_7 main_v20 (broadcastInDim S8x128x128x64 ![] bcast_S_S8x128x128x64 : (⟨S_, .i32⟩ : BufTy).Contents (Elt F) → (⟨S8x128x128x64, .i32⟩ : BufTy).Contents (Elt F)),
    StableHlo.binary main_v2 main_v20 main_v21 (addi : (⟨S8x128x128x64, .i32⟩ : BufTy).Contents (Elt F) → (⟨S8x128x128x64, .i32⟩ : BufTy).Contents (Elt F) → (⟨S8x128x128x64, .i32⟩ : BufTy).Contents (Elt F)),
    StableHlo.ternary main_v19 main_v21 main_v2 main_v22 (select : (⟨S8x128x128x64, .i1⟩ : BufTy).Contents (Elt F) → (⟨S8x128x128x64, .i32⟩ : BufTy).Contents (Elt F) → (⟨S8x128x128x64, .i32⟩ : BufTy).Contents (Elt F) → (⟨S8x128x128x64, .i32⟩ : BufTy).Contents (Elt F)),
    StableHlo.nullary main_c_8 (constantI S_ 32 0#32),
    StableHlo.unary main_c_8 main_v23 (broadcastInDim S1x1x1x64 ![] bcast_S_S1x1x1x64 : (⟨S_, .i32⟩ : BufTy).Contents (Elt F) → (⟨S1x1x1x64, .i32⟩ : BufTy).Contents (Elt F)),
    StableHlo.binary main_v6 main_v23 main_v24 (cmpi .slt : (⟨S1x1x1x64, .i32⟩ : BufTy).Contents (Elt F) → (⟨S1x1x1x64, .i32⟩ : BufTy).Contents (Elt F) → (⟨S1x1x1x64, .i1⟩ : BufTy).Contents (Elt F)),
    StableHlo.nullary main_c_9 (constantI S_ 32 64#32),
    StableHlo.unary main_c_9 main_v25 (broadcastInDim S1x1x1x64 ![] bcast_S_S1x1x1x64 : (⟨S_, .i32⟩ : BufTy).Contents (Elt F) → (⟨S1x1x1x64, .i32⟩ : BufTy).Contents (Elt F)),
    StableHlo.binary main_v6 main_v25 main_v26 (addi : (⟨S1x1x1x64, .i32⟩ : BufTy).Contents (Elt F) → (⟨S1x1x1x64, .i32⟩ : BufTy).Contents (Elt F) → (⟨S1x1x1x64, .i32⟩ : BufTy).Contents (Elt F)),
    StableHlo.ternary main_v24 main_v26 main_v6 main_v27 (select : (⟨S1x1x1x64, .i1⟩ : BufTy).Contents (Elt F) → (⟨S1x1x1x64, .i32⟩ : BufTy).Contents (Elt F) → (⟨S1x1x1x64, .i32⟩ : BufTy).Contents (Elt F) → (⟨S1x1x1x64, .i32⟩ : BufTy).Contents (Elt F)),
    StableHlo.unary main_v12 main_v28 (broadcastInDim S8x128x128x64 ![0, 1, 2, 3] bcast_S8x1x1x1_S8x128x128x64_0_1_2_3 : (⟨S8x1x1x1, .i32⟩ : BufTy).Contents (Elt F) → (⟨S8x128x128x64, .i32⟩ : BufTy).Contents (Elt F)),
    StableHlo.unary main_v27 main_v29 (broadcastInDim S8x128x128x64 ![0, 1, 2, 3] bcast_S1x1x1x64_S8x128x128x64_0_1_2_3 : (⟨S1x1x1x64, .i32⟩ : BufTy).Contents (Elt F) → (⟨S8x128x128x64, .i32⟩ : BufTy).Contents (Elt F)),
    StableHlo.unary main_v28 main_v30 (broadcastInDim S8x128x128x64x1 ![0, 1, 2, 3] bcast_S8x128x128x64_S8x128x128x64x1_0_1_2_3 : (⟨S8x128x128x64, .i32⟩ : BufTy).Contents (Elt F) → (⟨S8x128x128x64x1, .i32⟩ : BufTy).Contents (Elt F)),
    StableHlo.unary main_v17 main_v31 (broadcastInDim S8x128x128x64x1 ![0, 1, 2, 3] bcast_S8x128x128x64_S8x128x128x64x1_0_1_2_3 : (⟨S8x128x128x64, .i32⟩ : BufTy).Contents (Elt F) → (⟨S8x128x128x64x1, .i32⟩ : BufTy).Contents (Elt F)),
    StableHlo.unary main_v22 main_v32 (broadcastInDim S8x128x128x64x1 ![0, 1, 2, 3] bcast_S8x128x128x64_S8x128x128x64x1_0_1_2_3 : (⟨S8x128x128x64, .i32⟩ : BufTy).Contents (Elt F) → (⟨S8x128x128x64x1, .i32⟩ : BufTy).Contents (Elt F)),
    StableHlo.unary main_v29 main_v33 (broadcastInDim S8x128x128x64x1 ![0, 1, 2, 3] bcast_S8x128x128x64_S8x128x128x64x1_0_1_2_3 : (⟨S8x128x128x64, .i32⟩ : BufTy).Contents (Elt F) → (⟨S8x128x128x64x1, .i32⟩ : BufTy).Contents (Elt F)) ]

/-- The concatenation of the four components and the accumulating scatter. -/
abbrev opsD2 : List (HloOp τ sig (Elt F)) :=
  [ StableHlo.nary ![main_v30, main_v31, main_v32, main_v33] main_v34 (fun u => concatenate S8x128x128x64x4 4 [⟨S8x128x128x64x1, u 0⟩, ⟨S8x128x128x64x1, u 1⟩, ⟨S8x128x128x64x1, u 2⟩, ⟨S8x128x128x64x1, u 3⟩] concatenates_S8x128x128x64x1_S8x128x128x64x1_S8x128x128x64x1_S8x128x128x64x1_S8x128x128x64x4_d4),
    StableHlo.ternary main_v7 main_v34 main_arg0 main_v35 ((fun x i u => Host.scatterAdd scatter_S8x256x256x64_S8x128x128x64x4_S8x128x128x64_n_0123_0123_4 x i u) : (⟨S8x256x256x64, .f32⟩ : BufTy).Contents (Elt F) → (⟨S8x128x128x64x4, .i32⟩ : BufTy).Contents (Elt F) → (⟨S8x128x128x64, .f32⟩ : BufTy).Contents (Elt F) → (⟨S8x256x256x64, .f32⟩ : BufTy).Contents (Elt F)) ]

/-- The reference's operations in order, each outlined function's operations listed at its call over that call's
    own buffers. -/
abbrev ops : List (HloOp τ sig (Elt F)) := opsA ++ opsB ++ opsC ++ opsD1 ++ opsD2

set_option maxRecDepth 4096 in
set_option maxHeartbeats 4000000 in
/-- @main is that straight line: the functions' bodies unfolded at their calls and the records at their fields,
    both sides are one chain of steps once sequencing is reassociated. -/
theorem main_eq (c : Dev nD) : main (F := F) c = seq ops := by
  simp only [main, fn_floor_divide.body, fn_remainder.body, fn_where.body, fn_where_0.body, ops, opsA, opsB, opsC, opsD1, opsD2,
    seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsB_sub : (opsB : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem opsC_sub : (opsC : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsD1_sub : (opsD1 : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., unary_bufs_sub ..⟩
theorem opsD2_sub : (opsD2 : List (HloOp τ sig (Elt F))).Forall fun op => op.bufs ⊆ tcRefs τ sig :=
  ⟨nary_bufs_sub .., ternary_bufs_sub ..⟩

theorem ops_sub : (ops : List (HloOp τ sig (Elt F))).Forall fun op => op.bufs ⊆ tcRefs τ sig :=
  List.forall_append.mpr ⟨List.forall_append.mpr ⟨List.forall_append.mpr ⟨List.forall_append.mpr ⟨opsA_sub, opsB_sub⟩, opsC_sub⟩,
    opsD1_sub⟩, opsD2_sub⟩

/-- Every weakly fair execution of @main terminates with each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A fold over two lines run one after the other is the second's over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! The fold read stretch by stretch: what each stretch leaves at the buffers the later ones read, and that it leaves
    the earlier results and the arguments as they were. -/

theorem opsA_v0 (V : Valuation τ sig (Elt F)) :
    after opsA V main_v0 = fdivTerm (V main_arg1) (constantI S_ 32 16384#32) := by
  after_results_simp
  rfl
theorem opsA_arg0 (V : Valuation τ sig (Elt F)) : after opsA V main_arg0 = V main_arg0 := by after_results_simp
theorem opsA_arg1 (V : Valuation τ sig (Elt F)) : after opsA V main_arg1 = V main_arg1 := by after_results_simp

theorem opsB_v1 (V : Valuation τ sig (Elt F)) :
    after opsB V main_v1 = fdivTerm (V main_arg1) (constantI S_ 32 64#32) := by
  after_results_simp
  rfl
theorem opsB_v0 (V : Valuation τ sig (Elt F)) : after opsB V main_v0 = V main_v0 := by after_results_simp
theorem opsB_arg0 (V : Valuation τ sig (Elt F)) : after opsB V main_arg0 = V main_arg0 := by after_results_simp
theorem opsB_arg1 (V : Valuation τ sig (Elt F)) : after opsB V main_arg1 = V main_arg1 := by after_results_simp

theorem opsC_v2 (V : Valuation τ sig (Elt F)) :
    after opsC V main_v2 = remTerm (V main_v1) (constantI S_ 32 256#32) := by
  after_results_simp
  rfl
theorem opsC_v0 (V : Valuation τ sig (Elt F)) : after opsC V main_v0 = V main_v0 := by after_results_simp
theorem opsC_arg0 (V : Valuation τ sig (Elt F)) : after opsC V main_arg0 = V main_arg0 := by after_results_simp
theorem opsC_arg1 (V : Valuation τ sig (Elt F)) : after opsC V main_arg1 = V main_arg1 := by after_results_simp

theorem opsD1_v7 (V : Valuation τ sig (Elt F)) :
    after opsD1 V main_v7 = broadcastInDim S8x256x256x64 ![] bcast_S_S8x256x256x64 (constant (F := F) S_ .f32 0x00000000#32) := by
  after_results_simp
theorem opsD1_v30 (V : Valuation τ sig (Elt F)) :
    after opsD1 V main_v30
      = broadcastInDim S8x128x128x64x1 ![0, 1, 2, 3] bcast_S8x128x128x64_S8x128x128x64x1_0_1_2_3 (broadcastInDim S8x128x128x64 ![0, 1, 2, 3] bcast_S8x1x1x1_S8x128x128x64_0_1_2_3 batchTerm) := by
  after_results_simp
  rfl
theorem opsD1_v31 (V : Valuation τ sig (Elt F)) :
    after opsD1 V main_v31 = broadcastInDim S8x128x128x64x1 ![0, 1, 2, 3] bcast_S8x128x128x64_S8x128x128x64x1_0_1_2_3 (wrapTerm (V main_v0)) := by
  after_results_simp
  rfl
theorem opsD1_v32 (V : Valuation τ sig (Elt F)) :
    after opsD1 V main_v32 = broadcastInDim S8x128x128x64x1 ![0, 1, 2, 3] bcast_S8x128x128x64_S8x128x128x64x1_0_1_2_3 (wrapTerm (V main_v2)) := by
  after_results_simp
  rfl
theorem opsD1_v33 (V : Valuation τ sig (Elt F)) :
    after opsD1 V main_v33
      = broadcastInDim S8x128x128x64x1 ![0, 1, 2, 3] bcast_S8x128x128x64_S8x128x128x64x1_0_1_2_3 (broadcastInDim S8x128x128x64 ![0, 1, 2, 3] bcast_S1x1x1x64_S8x128x128x64_0_1_2_3 featTerm) := by
  after_results_simp
  rfl
theorem opsD1_arg0 (V : Valuation τ sig (Elt F)) : after opsD1 V main_arg0 = V main_arg0 := by after_results_simp
theorem opsD1_arg1 (V : Valuation τ sig (Elt F)) : after opsD1 V main_arg1 = V main_arg1 := by after_results_simp

theorem opsD2_v35 (V : Valuation τ sig (Elt F)) :
    after opsD2 V main_v35
      = Host.scatterAdd (F := F) scatter_S8x256x256x64_S8x128x128x64x4_S8x128x128x64_n_0123_0123_4 (V main_v7)
          (concatenate S8x128x128x64x4 4 [⟨S8x128x128x64x1, V main_v30⟩, ⟨S8x128x128x64x1, V main_v31⟩,
              ⟨S8x128x128x64x1, V main_v32⟩, ⟨S8x128x128x64x1, V main_v33⟩]
            concatenates_S8x128x128x64x1_S8x128x128x64x1_S8x128x128x64x1_S8x128x128x64x1_S8x128x128x64x4_d4)
          (V main_arg0) := by
  after_results
  rfl
theorem opsD2_arg0 (V : Valuation τ sig (Elt F)) : after opsD2 V main_arg0 = V main_arg0 := by after_results
theorem opsD2_arg1 (V : Valuation τ sig (Elt F)) : after opsD2 V main_arg1 = V main_arg1 := by after_results

/-- The whole fold at the result: the accumulating scatter of the pooled values into zeros at the composed start
    indices of the index words. -/
theorem v35_eq (V : Valuation τ sig (Elt F)) :
    after ops V main_v35
      = Host.scatterAdd (F := F) scatter_S8x256x256x64_S8x128x128x64x4_S8x128x128x64_n_0123_0123_4
          (broadcastInDim S8x256x256x64 ![] bcast_S_S8x256x256x64 (constant (F := F) S_ .f32 0x00000000#32))
          (idxTerm (V main_arg1)) (V main_arg0) := by
  simp only [ops, after_app]
  rw [opsD2_v35, opsD1_v7, opsD1_v30, opsD1_v31, opsD1_v32, opsD1_v33, opsD1_arg0, opsC_v0, opsC_v2, opsC_arg0,
    opsB_v0, opsB_v1, opsB_arg0, opsA_v0, opsA_arg1, opsA_arg0]
  rfl

theorem arg0_eq (V : Valuation τ sig (Elt F)) : after ops V main_arg0 = V main_arg0 := by
  simp only [ops, after_app]
  rw [opsD2_arg0, opsD1_arg0, opsC_arg0, opsB_arg0, opsA_arg0]
theorem arg1_eq (V : Valuation τ sig (Elt F)) : after ops V main_arg1 = V main_arg1 := by
  simp only [ops, after_app]
  rw [opsD2_arg1, opsD1_arg1, opsC_arg1, opsB_arg1, opsA_arg1]

end Line

/-- The composed start indices are the function `refIdx` of the index words: the same operations in the same order. -/
theorem idxTerm_eq (mk : IVec S8x128x128x64 32) : idxTerm mk = refIdx mk := rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
          = Host.scatterAdd (F := Ideal) scatter_S8x256x256x64_S8x128x128x64x4_S8x128x128x64_n_0123_0123_4
              (broadcastInDim S8x256x256x64 ![] bcast_S_S8x256x256x64 (constant (F := Ideal) S_ .f32 0x00000000#32))
              (refIdx (m ((c.tc : Thread nD τ).loc main_arg1))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v35).trans ((v35_eq _).trans (by rw [idxTerm_eq])),
    (h c main_arg0).trans (arg0_eq _), (h c main_arg1).trans (arg1_eq _)⟩) (run_main m ρ)

end Cert.ReferenceIdeal.RefRun

end
-- ==== Proof.Words.lean ====
/- Word-level facts: the two index bits are bits, and under locality the start index a position scatters to,
   read signed, is (its batch, twice its pooled row plus the row bit, twice its pooled column plus the column bit,
   its feature). -/
import proofs.«403514_j1082331758744_3_alg».proof.Proof.Spec
import Idealize.ShloMosaic.Lib.StableHlo.Predicate

noncomputable section

namespace Cert.Unpool

open Idealize.ShloMosaic Idealize.ShloMosaic.ValueIdx

namespace Words

/-! ### Shifts and masks of a word, as arithmetic on its value -/

/-- An arithmetic shift by a literal amount below the width is the plain arithmetic shift, on any unit. -/
theorem shrsi_lit (u : ArithUnit) (m : BitVec 32) (k : Nat) (hk : k < 32) :
    IntOp.shrsi u m (BitVec.ofNat 32 k) = m.sshiftRight k := by
  have hk' : (BitVec.ofNat 32 k).toNat = k := by rw [BitVec.toNat_ofNat]; omega
  unfold IntOp.shrsi
  rw [if_pos (by omega), BitVec.sshiftRight_eq', hk']

/-- An arithmetic shift keeps the sign bit, so a word whose shift is a small non-negative number is itself
    non-negative. -/
theorem msb_false_of_sshiftRight {m : BitVec 32} {k n : Nat} (hn : n < 2 ^ 31)
    (h : m.sshiftRight k = BitVec.ofNat 32 n) : m.msb = false := by
  rw [← BitVec.msb_sshiftRight (n := k), h]
  exact BitVec.msb_eq_false_iff_two_mul_lt.mpr (by rw [BitVec.toNat_ofNat]; omega)

/-- On a non-negative word an arithmetic shift divides the value by the power of two. -/
theorem toNat_sshiftRight_nonneg {m : BitVec 32} (hm : m.msb = false) (k : Nat) :
    (m.sshiftRight k).toNat = m.toNat / 2 ^ k := by
  rw [BitVec.sshiftRight_eq_of_msb_false hm, BitVec.toNat_ushiftRight, Nat.shiftRight_eq_div_pow]

/-- Masking with 1 keeps the parity. -/
theorem toNat_and_one (x : BitVec 32) : (x &&& 1#32).toNat = x.toNat % 2 := by
  rw [BitVec.toNat_and]; exact Nat.and_one_is_mod _

end Words

open Words

theorem rowBit_lt (m : BitVec 32) : (rowBit m).toNat < 2 := by
  unfold rowBit IntOp.andi
  rw [toNat_and_one]; omega

theorem colBit_lt (m : BitVec 32) : (colBit m).toNat < 2 := by
  unfold colBit IntOp.andi
  rw [toNat_and_one]; omega

namespace Words

/-- The row bit of a non-negative word is the parity of its value divided by 2¹⁴. -/
theorem rowBit_toNat {m : BitVec 32} (hm : m.msb = false) : (rowBit m).toNat = m.toNat / 16384 % 2 := by
  unfold rowBit IntOp.andi
  rw [toNat_and_one, shrsi_lit _ _ 14 (by omega), toNat_sshiftRight_nonneg hm]; rfl

/-- The column bit of a non-negative word is the parity of its value divided by 2⁶. -/
theorem colBit_toNat {m : BitVec 32} (hm : m.msb = false) : (colBit m).toNat = m.toNat / 64 % 2 := by
  unfold colBit IntOp.andi
  rw [toNat_and_one, shrsi_lit _ _ 6 (by omega), toNat_sshiftRight_nonneg hm]; rfl

/-- What locality says of one word's value: the word is non-negative, its value divided by 2¹⁵ is the pooled
    row, and its value divided by 2⁷, modulo 2⁷, is the pooled column. -/
theorem local_decode {m : BitVec 32} {h w : Nat} (hh : h < 128) (hw : w < 128)
    (h1 : IntOp.shrsi .host m 15#32 = BitVec.ofNat 32 h)
    (h2 : IntOp.andi (IntOp.shrsi .host m 7#32) 127#32 = BitVec.ofNat 32 w) :
    m.msb = false ∧ m.toNat / 32768 = h ∧ m.toNat / 128 % 128 = w := by
  rw [shrsi_lit _ _ 15 (by omega)] at h1
  rw [shrsi_lit _ _ 7 (by omega)] at h2
  have hm : m.msb = false := msb_false_of_sshiftRight (by omega) h1
  refine ⟨hm, ?_, ?_⟩
  · have e := congrArg BitVec.toNat h1
    rw [toNat_sshiftRight_nonneg hm, BitVec.toNat_ofNat] at e
    omega
  · have e := congrArg BitVec.toNat h2
    unfold IntOp.andi at e
    rw [BitVec.toNat_and, toNat_sshiftRight_nonneg hm, BitVec.toNat_ofNat, BitVec.toNat_ofNat] at e
    have e127 : 127 % 2 ^ 32 = 2 ^ 7 - 1 := by decide
    rw [e127, Nat.and_two_pow_sub_one_eq_mod] at e
    omega

/-! ### Truncating division and remainder of a non-negative word by a positive one -/

/-- A positive divisor below 2³¹ is neither zero nor −1, so the signed division meets no corner. -/
theorem not_corner (x : BitVec 32) {d : BitVec 32} (h0 : 0 < d.toNat) (hd : d.toNat < 2 ^ 31) :
    ¬ IntOp.SDivCorner x d := by
  rintro (e | ⟨_, e⟩)
  · rw [e] at h0; exact absurd h0 (by decide)
  · rw [e] at hd; exact absurd hd (by decide)

/-- Truncating division of a non-negative word by a positive one is division of the values, on any unit. -/
theorem divsi_nonneg (u : ArithUnit) {m d : BitVec 32} (hm : m.toNat < 2 ^ 31) (h0 : 0 < d.toNat)
    (hd : d.toNat < 2 ^ 31) : IntOp.divsi u m d = m / d := by
  have mm : m.msb = false := BitVec.msb_eq_false_iff_two_mul_lt.mpr (by omega)
  have md : d.msb = false := BitVec.msb_eq_false_iff_two_mul_lt.mpr (by omega)
  simp only [IntOp.divsi, if_neg (not_corner m h0 hd), BitVec.sdiv_eq, mm, md, BitVec.udiv_eq]

/-- The truncating remainder of a non-negative word by a positive one is the remainder of the values, on any unit. -/
theorem remsi_nonneg (u : ArithUnit) {m d : BitVec 32} (hm : m.toNat < 2 ^ 31) (h0 : 0 < d.toNat)
    (hd : d.toNat < 2 ^ 31) : IntOp.remsi u m d = m % d := by
  have mm : m.msb = false := BitVec.msb_eq_false_iff_two_mul_lt.mpr (by omega)
  have md : d.msb = false := BitVec.msb_eq_false_iff_two_mul_lt.mpr (by omega)
  simp only [IntOp.remsi, if_neg (not_corner m h0 hd), BitVec.srem_eq, mm, md]

/-- The conjunction of two one-bit tests holds exactly when both do. -/
theorem and_ofBool_eq_one (p q : Bool) : BitVec.ofBool p &&& BitVec.ofBool q = 1 ↔ p = true ∧ q = true := by
  cases p <;> cases q <;> decide

/-- The sign word of a positive word is 1. -/
theorem sign_pos {d : BitVec 32} (h0 : 0 < d.toNat) (hd : d.toNat < 2 ^ 31) : sign d = 1#32 := by
  have md : d.msb = false := BitVec.msb_eq_false_iff_two_mul_lt.mpr (by omega)
  have hne : d ≠ 0 := by intro e; rw [e] at h0; exact absurd h0 (by decide)
  unfold sign
  rw [if_neg hne, md]; rfl

/-- For a non-negative dividend and a positive divisor the floored quotient is the truncating one: the signs
    differ only when the dividend is zero, and then the remainder is zero. -/
theorem floorDiv_nonneg {m d : BitVec 32} (hm : m.toNat < 2 ^ 31) (h0 : 0 < d.toNat) (hd : d.toNat < 2 ^ 31) :
    floorDiv m d = m / d := by
  have mm : m.msb = false := BitVec.msb_eq_false_iff_two_mul_lt.mpr (by omega)
  unfold floorDiv
  rw [divsi_nonneg .host hm h0 hd, remsi_nonneg .host hm h0 hd, sign_pos h0 hd]
  unfold Scalar.select
  rw [if_neg]
  intro hc
  simp only [IntOp.andi, IntOp.cmpi] at hc
  rw [and_ofBool_eq_one] at hc
  obtain ⟨hs, hr⟩ := hc
  have hm0 : m = 0 := by
    by_contra hne
    have e : sign m = 1#32 := by unfold sign; rw [if_neg hne, mm]; rfl
    rw [e] at hs; exact absurd hs (by decide)
  have hz : m % d = 0#32 := by
    apply BitVec.eq_of_toNat_eq
    rw [BitVec.toNat_umod, hm0]; exact Nat.zero_mod _
  rw [hz] at hr; exact absurd hr (by decide)

/-- A nonzero divisor is the one the floored remainder divides by. -/
theorem safeDiv_pos {d : BitVec 32} (h0 : 0 < d.toNat) : safeDiv d = d := by
  unfold safeDiv Scalar.select
  rw [if_neg]
  intro hc
  have e : d = 0#32 := StableHlo.Predicate.cmpi_eq_iff.mp hc
  rw [e] at h0; exact absurd h0 (by decide)

/-- For a non-negative dividend and a positive divisor the floored remainder is the truncating one: neither it
    nor the divisor is negative, so nothing is added. -/
theorem floorMod_nonneg {q d : BitVec 32} (hq : q.toNat < 2 ^ 31) (h0 : 0 < d.toNat) (hd : d.toNat < 2 ^ 31) :
    floorMod q d = q % d := by
  have md : d.msb = false := BitVec.msb_eq_false_iff_two_mul_lt.mpr (by omega)
  have mr : (q % d).msb = false := by
    apply BitVec.msb_eq_false_iff_two_mul_lt.mpr
    rw [BitVec.toNat_umod]
    have := Nat.mod_le q.toNat d.toNat
    omega
  unfold floorMod
  rw [safeDiv_pos h0, remsi_nonneg .host hq h0 hd]
  unfold Scalar.select
  rw [if_neg]
  intro hc
  simp only [IntOp.andi, IntOp.cmpi, BitVec.slt_zero_eq_msb, mr, md] at hc
  rw [and_ofBool_eq_one] at hc
  exact absurd hc.1 (by decide)

/-- Reading from the end leaves a non-negative index alone. -/
theorem wrap_nonneg (n : BitVec 32) {x : BitVec 32} (hx : x.toNat < 2 ^ 31) : wrap n x = x := by
  unfold wrap Scalar.select
  rw [if_neg]
  intro hc
  have h := (StableHlo.Predicate.slt_iff_toNat hx (by decide : (0#32 : BitVec 32).toNat < 2 ^ 31)).mp hc
  exact Nat.not_lt_zero _ h

/-- A small number as a word, wrapped and read signed, is the number. -/
theorem wrap_ofNat_toInt (n : BitVec 32) {a : Nat} (ha : a < 2 ^ 31) :
    (wrap n (BitVec.ofNat 32 a)).toInt = (a : ℤ) := by
  have e : (BitVec.ofNat 32 a).toNat = a := by rw [BitVec.toNat_ofNat]; omega
  rw [wrap_nonneg n (by omega), StableHlo.Predicate.toInt_eq_toNat_of_lt (by omega), e]

/-- A word below 2³¹, wrapped and read signed, is its value. -/
theorem wrap_toInt (n : BitVec 32) {x : BitVec 32} (hx : x.toNat < 2 ^ 31) : (wrap n x).toInt = (x.toNat : ℤ) := by
  rw [wrap_nonneg n hx, StableHlo.Predicate.toInt_eq_toNat_of_lt hx]

/-- The row component: the floored quotient by 2¹⁴ of a local word is twice the pooled row plus the row bit. -/
theorem row_word {m : BitVec 32} {h : Nat} (hm : m.msb = false) (hrow : m.toNat / 32768 = h) (hh : h < 128) :
    (wrap 256#32 (floorDiv m 16384#32)).toInt = ((2 * h + (rowBit m).toNat : ℕ) : ℤ) := by
  have hmlt : m.toNat < 2 ^ 31 := by have := BitVec.msb_eq_false_iff_two_mul_lt.mp hm; omega
  have e16384 : (16384#32 : BitVec 32).toNat = 16384 := by decide
  have eq1 : (floorDiv m 16384#32).toNat = m.toNat / 16384 := by
    rw [floorDiv_nonneg hmlt (by omega) (by omega), BitVec.toNat_udiv, e16384]
  rw [wrap_toInt _ (by omega), eq1, rowBit_toNat hm]
  congr 1; omega

/-- The column component: the floored quotient by 2⁶, reduced modulo 2⁸, of a local word is twice the pooled
    column plus the column bit. -/
theorem col_word {m : BitVec 32} {w : Nat} (hm : m.msb = false) (hcol : m.toNat / 128 % 128 = w) (hw : w < 128) :
    (wrap 256#32 (floorMod (floorDiv m 64#32) 256#32)).toInt = ((2 * w + (colBit m).toNat : ℕ) : ℤ) := by
  have hmlt : m.toNat < 2 ^ 31 := by have := BitVec.msb_eq_false_iff_two_mul_lt.mp hm; omega
  have e64 : (64#32 : BitVec 32).toNat = 64 := by decide
  have e256 : (256#32 : BitVec 32).toNat = 256 := by decide
  have eq2 : (floorDiv m 64#32).toNat = m.toNat / 64 := by
    rw [floorDiv_nonneg hmlt (by omega) (by omega), BitVec.toNat_udiv, e64]
  have eq3 : (floorMod (floorDiv m 64#32) 256#32).toNat = m.toNat / 64 % 256 := by
    rw [floorMod_nonneg (by omega) (by omega) (by omega), BitVec.toNat_umod, eq2, e256]
  rw [wrap_toInt _ (by omega), eq3, colBit_toNat hm]
  congr 1; omega

end Words

theorem idxWord_toInt {mk : SIn.Idx → BitVec 32} (hL : Local mk) (b : Fin 8) (h w : Fin 128) (c : Fin 64) :
    (idxWord mk b h w c 0).toInt = ((b.val : ℕ) : ℤ)
    ∧ (idxWord mk b h w c 1).toInt = ((2 * h.val + (rowBit (mk (ix4 b h w c))).toNat : ℕ) : ℤ)
    ∧ (idxWord mk b h w c 2).toInt = ((2 * w.val + (colBit (mk (ix4 b h w c))).toNat : ℕ) : ℤ)
    ∧ (idxWord mk b h w c 3).toInt = ((c.val : ℕ) : ℤ) := by
  obtain ⟨h1, h2⟩ := hL b h w c
  obtain ⟨hm, hrow, hcol⟩ := local_decode h.isLt w.isLt h1 h2
  have hb := b.isLt
  have hc := c.isLt
  refine ⟨?_, ?_, ?_, ?_⟩
  · show (wrap 8#32 (BitVec.ofNat 32 b.val)).toInt = _
    exact wrap_ofNat_toInt _ (by omega)
  · show (wrap 256#32 (floorDiv (mk (ix4 b h w c)) 16384#32)).toInt = _
    exact row_word hm hrow h.isLt
  · show (wrap 256#32 (floorMod (floorDiv (mk (ix4 b h w c)) 64#32) 256#32)).toInt = _
    exact col_word hm hcol w.isLt
  · show (wrap 64#32 (BitVec.ofNat 32 c.val)).toInt = _
    exact wrap_ofNat_toInt _ (by omega)

end Cert.Unpool

end
-- ==== Proof.ScatterRead.lean ====
/- Where an update lands: for a scatter whose four start-index components address the four axes of the operand
   and whose window is a single element, update position (b, h, w, c) lands on `i` exactly when its four start
   words, read signed, are `i`'s coordinates. -/
import proofs.«403514_j1082331758744_3_alg».proof.Proof.Gen.ReferenceIdeal
import proofs.«403514_j1082331758744_3_alg».proof.Proof.Spec

noncomputable section

namespace Cert.Unpool

open Idealize.ShloMosaic Idealize.ShloMosaic.ValueIdx Cert.ReferenceIdeal

/-- The scatter of the reference: four start-index components for the four operand axes, every axis inserted. -/
abbrev scat := scatter_S8x256x256x64_S8x128x128x64x4_S8x128x128x64_n_0123_0123_4

/-- Every operand axis is an inserted window axis … -/
theorem scat_mem_inserted : ∀ a : Fin 4, a ∈ scat.insertedWindowDims := by decide
/-- … and every operand axis is named by the map from start-index components to operand axes. -/
theorem scat_mem_sdto : ∀ a : Fin 4, a ∈ scat.scatterDimsToOperandDims := by decide

/-- No operand axis is kept for a window, so the window coordinate is zero on every axis: the window is one element. -/
theorem scat_window (j : S8x128x128x64.Idx) (a : Fin 4) : scat.window j a = 0 := by
  unfold ScatterDims.window
  rw [dif_neg]
  simp only [ScatterDims.sKept, Shape.kept, List.mem_filter, List.mem_finRange, true_and, decide_not, Bool.not_eq_true', decide_eq_false_iff_not, not_not]
  exact scat_mem_inserted a

/-- Update position (b, h, w, c) reads component `k` of its start index at (b, h, w, c, k): the four update axes are the
    four leading axes of the start-index array, in order, and the fifth axis is the index vector's. -/
theorem scat_siIdx (b : Fin 8) (h w : Fin 128) (c : Fin 64) (k : Fin 4) :
    scat.siIdx (ix4 b h w c) k = ix5 b h w c k := by
  funext e
  match e with
  | ⟨0, _⟩ => exact Fin.ext rfl
  | ⟨1, _⟩ => exact Fin.ext rfl
  | ⟨2, _⟩ => exact Fin.ext rfl
  | ⟨3, _⟩ => exact Fin.ext rfl
  | ⟨4, _⟩ => exact Fin.ext rfl

/-- The window's start on operand axis `a` is component `a` of the start index, read signed: the map from components
    to axes is the identity. -/
theorem scat_start (idx : IVec S8x128x128x64x4 32) (b : Fin 8) (h w : Fin 128) (c : Fin 64) (a : Fin 4) :
    scat.start (ix4 b h w c) idx a = (idx (ix5 b h w c a)).toInt := by
  unfold ScatterDims.start
  rw [dif_pos (scat_mem_sdto a), ← scat_siIdx]
  congr 3
  match a with
  | ⟨0, _⟩ => rfl
  | ⟨1, _⟩ => rfl
  | ⟨2, _⟩ => rfl
  | ⟨3, _⟩ => rfl

theorem resultIdx_eq_some_iff (idx : IVec S8x128x128x64x4 32) (b : Fin 8) (h w : Fin 128) (c : Fin 64) (i : SOut.Idx) :
    scatter_S8x256x256x64_S8x128x128x64x4_S8x128x128x64_n_0123_0123_4.resultIdx? (ix4 b h w c) idx = some i
      ↔ (idx (ix5 b h w c (0 : Fin 4))).toInt = (((i 0).val : ℕ) : ℤ)
        ∧ (idx (ix5 b h w c (1 : Fin 4))).toInt = (((i 1).val : ℕ) : ℤ)
        ∧ (idx (ix5 b h w c (2 : Fin 4))).toInt = (((i 2).val : ℕ) : ℤ)
        ∧ (idx (ix5 b h w c (3 : Fin 4))).toInt = (((i 3).val : ℕ) : ℤ) := by
  -- start plus window coordinate is the signed start word on every axis
  have hs : ∀ a : Fin 4, scat.start (ix4 b h w c) idx a + (scat.window (ix4 b h w c) a : ℤ) = (idx (ix5 b h w c a)).toInt := by
    intro a; rw [scat_window, scat_start]; simp
  have i0 : (i 0).val < 8 := (i 0).isLt
  have i1 : (i 1).val < 256 := (i 1).isLt
  have i2 : (i 2).val < 256 := (i 2).isLt
  have i3 : (i 3).val < 64 := (i 3).isLt
  unfold ScatterDims.resultIdx?
  split
  · -- the update is inside the operand on every axis: the landing index is the four words, each nonnegative
    rename_i hc
    rw [Option.some.injEq]
    constructor
    · intro he
      subst he
      refine ⟨?_, ?_, ?_, ?_⟩
      · show _ = (((scat.start (ix4 b h w c) idx 0 + (scat.window (ix4 b h w c) 0 : ℤ)).toNat : ℕ) : ℤ)
        rw [Int.toNat_of_nonneg (hc 0).1, hs 0]
      · show _ = (((scat.start (ix4 b h w c) idx 1 + (scat.window (ix4 b h w c) 1 : ℤ)).toNat : ℕ) : ℤ)
        rw [Int.toNat_of_nonneg (hc 1).1, hs 1]
      · show _ = (((scat.start (ix4 b h w c) idx 2 + (scat.window (ix4 b h w c) 2 : ℤ)).toNat : ℕ) : ℤ)
        rw [Int.toNat_of_nonneg (hc 2).1, hs 2]
      · show _ = (((scat.start (ix4 b h w c) idx 3 + (scat.window (ix4 b h w c) 3 : ℤ)).toNat : ℕ) : ℤ)
        rw [Int.toNat_of_nonneg (hc 3).1, hs 3]
    · rintro ⟨h0, h1, h2, h3⟩
      funext a
      apply Fin.ext
      match a with
      | ⟨0, _⟩ =>
        show (scat.start (ix4 b h w c) idx 0 + (scat.window (ix4 b h w c) 0 : ℤ)).toNat = (i 0).val
        rw [hs 0, h0, Int.toNat_natCast]
      | ⟨1, _⟩ =>
        show (scat.start (ix4 b h w c) idx 1 + (scat.window (ix4 b h w c) 1 : ℤ)).toNat = (i 1).val
        rw [hs 1, h1, Int.toNat_natCast]
      | ⟨2, _⟩ =>
        show (scat.start (ix4 b h w c) idx 2 + (scat.window (ix4 b h w c) 2 : ℤ)).toNat = (i 2).val
        rw [hs 2, h2, Int.toNat_natCast]
      | ⟨3, _⟩ =>
        show (scat.start (ix4 b h w c) idx 3 + (scat.window (ix4 b h w c) 3 : ℤ)).toNat = (i 3).val
        rw [hs 3, h3, Int.toNat_natCast]
  · -- the update is dropped: then the four words cannot be the coordinates of an index, which are in range
    rename_i hc
    constructor
    · intro he; cases he
    · rintro ⟨h0, h1, h2, h3⟩
      exfalso
      apply hc
      intro a
      rw [hs a]
      match a with
      | ⟨0, _⟩ => exact ⟨by rw [show (⟨0, _⟩ : Fin 4) = 0 from rfl, h0]; omega, by rw [show (⟨0, _⟩ : Fin 4) = 0 from rfl, h0]; exact_mod_cast i0⟩
      | ⟨1, _⟩ => exact ⟨by rw [show (⟨1, _⟩ : Fin 4) = 1 from rfl, h1]; omega, by rw [show (⟨1, _⟩ : Fin 4) = 1 from rfl, h1]; exact_mod_cast i1⟩
      | ⟨2, _⟩ => exact ⟨by rw [show (⟨2, _⟩ : Fin 4) = 2 from rfl, h2]; omega, by rw [show (⟨2, _⟩ : Fin 4) = 2 from rfl, h2]; exact_mod_cast i2⟩
      | ⟨3, _⟩ => exact ⟨by rw [show (⟨3, _⟩ : Fin 4) = 3 from rfl, h3]; omega, by rw [show (⟨3, _⟩ : Fin 4) = 3 from rfl, h3]; exact_mod_cast i3⟩

end Cert.Unpool

end
-- ==== Proof.RefValue.lean ====
/- The accumulating scatter into zeros, at start indices that are local, is the unpooled array: at most one
   position reaches each element, so the sum over the positions landing there is one value or empty. -/
import proofs.«403514_j1082331758744_3_alg».proof.Proof.Words
import proofs.«403514_j1082331758744_3_alg».proof.Proof.ScatterRead
import Idealize.ShloMosaic.PureOps.Ideal.Laws

noncomputable section

namespace Cert.Unpool

open Idealize.ShloMosaic Idealize.ShloMosaic.ValueIdx Cert.ReferenceIdeal
open Cert.ReferenceIdeal.Facts₀

local notation "scat₀" => scatter_S8x256x256x64_S8x128x128x64x4_S8x128x128x64_n_0123_0123_4

/-- Two positions given by coordinates are equal exactly when their coordinates are. -/
theorem refv_ix4_eq_iff {n0 n1 n2 n3 : Nat} (a a' : Fin n0) (b b' : Fin n1) (c c' : Fin n2) (d d' : Fin n3) :
    ix4 a b c d = ix4 a' b' c' d' ↔ a = a' ∧ b = b' ∧ c = c' ∧ d = d' := by
  constructor
  · intro e
    exact ⟨congrFun e 0, congrFun e 1, congrFun e 2, congrFun e 3⟩
  · rintro ⟨rfl, rfl, rfl, rfl⟩; rfl

/-- A one-bit word equals the word of a parity exactly when its value is that parity. -/
theorem refv_eq_ofNat_mod_two_iff (x : BitVec 32) (n : ℕ) : x = BitVec.ofNat 32 (n % 2) ↔ x.toNat = n % 2 := by
  rw [← BitVec.toNat_inj, BitVec.toNat_ofNat]
  have : n % 2 % 2 ^ 32 = n % 2 := by omega
  rw [this]

/-- Under locality, position (b, h, w, c) lands on (b', Y, X, c') exactly when it is the position whose window holds
    that element — same batch and feature, pooled row Y / 2 and pooled column X / 2 — and its two index bits are the
    parities of Y and X. -/
theorem refv_lands_iff {mk : IVec S8x128x128x64 32} (hL : Local mk) (idx : IVec S8x128x128x64x4 32)
    (hidx : ∀ (b : Fin 8) (h w : Fin 128) (c : Fin 64) (k : Fin 4), idx (ix5 b h w c k) = idxWord mk b h w c k)
    (b : Fin 8) (h w : Fin 128) (c : Fin 64) (b' : Fin 8) (Y X : Fin 256) (c' : Fin 64) :
    ScatterDims.resultIdx? scat₀ (ix4 b h w c) idx = some (ix4 b' Y X c')
      ↔ ix4 b h w c = ix4 b' (half Y) (half X) c'
        ∧ rowBit (mk (ix4 b' (half Y) (half X) c')) = BitVec.ofNat 32 (Y.val % 2)
        ∧ colBit (mk (ix4 b' (half Y) (half X) c')) = BitVec.ofNat 32 (X.val % 2) := by
  rw [resultIdx_eq_some_iff, hidx, hidx, hidx, hidx]
  obtain ⟨e0, e1, e2, e3⟩ := idxWord_toInt hL b h w c
  rw [e0, e1, e2, e3]
  have hr := rowBit_lt (mk (ix4 b h w c))
  have hc := colBit_lt (mk (ix4 b h w c))
  have hY := Y.isLt
  have hX := X.isLt
  show ((b.val : ℕ) : ℤ) = ((b'.val : ℕ) : ℤ)
      ∧ ((2 * h.val + (rowBit (mk (ix4 b h w c))).toNat : ℕ) : ℤ) = ((Y.val : ℕ) : ℤ)
      ∧ ((2 * w.val + (colBit (mk (ix4 b h w c))).toNat : ℕ) : ℤ) = ((X.val : ℕ) : ℤ)
      ∧ ((c.val : ℕ) : ℤ) = ((c'.val : ℕ) : ℤ) ↔ _
  constructor
  · rintro ⟨h0, h1, h2, h3⟩
    have hb : b = b' := Fin.ext (by omega)
    have hh : h = half Y := Fin.ext (by show h.val = Y.val / 2; omega)
    have hw : w = half X := Fin.ext (by show w.val = X.val / 2; omega)
    have hcc : c = c' := Fin.ext (by omega)
    subst hb hh hw hcc
    refine ⟨rfl, ?_, ?_⟩
    · rw [refv_eq_ofNat_mod_two_iff]; omega
    · rw [refv_eq_ofNat_mod_two_iff]; omega
  · rintro ⟨hj, hrb, hcb⟩
    obtain ⟨rfl, rfl, rfl, rfl⟩ := (refv_ix4_eq_iff _ _ _ _ _ _ _ _).1 hj
    rw [refv_eq_ofNat_mod_two_iff] at hrb hcb
    have : (half Y).val = Y.val / 2 := rfl
    have : (half X).val = X.val / 2 := rfl
    refine ⟨rfl, ?_, ?_, rfl⟩ <;> omega

theorem ref_value {mk : IVec S8x128x128x64 32} (hL : Local mk) (upd : FVec Ideal S8x128x128x64 .f32)
    (idx : IVec S8x128x128x64x4 32)
    (hidx : ∀ (b : Fin 8) (h w : Fin 128) (c : Fin 64) (k : Fin 4), idx (ix5 b h w c k) = idxWord mk b h w c k) :
    Host.scatterAdd (F := Ideal) scatter_S8x256x256x64_S8x128x128x64x4_S8x128x128x64_n_0123_0123_4
        (broadcastInDim S8x256x256x64 ![] bcast_S_S8x256x256x64 (constant (F := Ideal) S_ .f32 0x00000000#32)) idx upd
      = G upd mk := by
  funext i
  obtain ⟨b', Y, X, c', rfl⟩ : ∃ (b' : Fin 8) (Y X : Fin 256) (c' : Fin 64), i = ix4 b' Y X c' :=
    ⟨i 0, i 1, i 2, i 3, eq_ix4 i⟩
  -- every update position is given by its coordinates, so the landing criterion reads on all of them
  have hland : ∀ j : S8x128x128x64.Idx,
      ScatterDims.resultIdx? scat₀ j idx = some (ix4 b' Y X c')
        ↔ j = ix4 b' (half Y) (half X) c'
          ∧ rowBit (mk (ix4 b' (half Y) (half X) c')) = BitVec.ofNat 32 (Y.val % 2)
          ∧ colBit (mk (ix4 b' (half Y) (half X) c')) = BitVec.ofNat 32 (X.val % 2) := by
    intro j
    rw [eq_ix4 j]
    exact refv_lands_iff hL idx hidx _ _ _ _ _ _ _ _
  -- the operand is zero everywhere
  have hz : (broadcastInDim S8x256x256x64 ![] bcast_S_S8x256x256x64 (constant (F := Ideal) S_ .f32 0x00000000#32))
      (ix4 b' Y X c') = (0 : EReal) := Ideal.ofBits_zero_f32
  unfold Host.scatterAdd
  rw [Ideal.hostScatterAdd_def]
  unfold Ideal.hostScatterAdd
  show _ + _ = G4 upd mk b' Y X c'
  rw [hz, zero_add]
  unfold G4
  split
  · -- the one position whose window holds the element names it: the sum is that position's value
    rename_i hb
    rw [Finset.sum_eq_single_of_mem (ix4 b' (half Y) (half X) c')]
    · rw [Finset.mem_filter]
      exact ⟨Finset.mem_univ _, (hland _).2 ⟨rfl, hb.1, hb.2⟩⟩
    · intro j hj hne
      rw [Finset.mem_filter] at hj
      exact absurd ((hland j).1 hj.2).1 hne
  · -- that position names another element of its window: nothing lands here
    rename_i hb
    apply Finset.sum_eq_zero
    intro j hj
    rw [Finset.mem_filter] at hj
    exact absurd ((hland j).1 hj.2).2 hb

end Cert.Unpool

end
-- ==== Proof.PreDecode.lean ====
/- The precondition read: when it is all ones, every index word is local.

   The precondition is a conjunction of three statements of the form "every element of a 0/1 array is 1": the values
   are finite (not used here), the word shifted right by 15 is the pooled row's number, and the word shifted right by
   7 and masked to seven bits is the pooled column's number.  A conjunction of bits is 1 exactly when both are; an
   all-reduction by `and` that is 1 had a 1 at every element; and an equality test is 1 exactly when the two words
   are equal.  Read at the position (b, h, w, c), the last two statements are the two halves of `Local`. -/
import proofs.«403514_j1082331758744_3_alg».proof.Proof.Gen.Pre_finite_inputs
import proofs.«403514_j1082331758744_3_alg».proof.Proof.Spec
import Idealize.ShloMosaic.Lib.ReduceAll
import Idealize.ShloMosaic.Lib.StableHlo.Predicate

noncomputable section

namespace Cert.Unpool

open Idealize.ShloMosaic Idealize.ShloMosaic.ValueIdx

/-- A shape of rank zero has one index. -/
instance subsingleton_scalarIdx : Subsingleton Cert.Pre_finite_inputs.S_.Idx :=
  ⟨fun _ _ => funext fun d => d.elim0⟩

theorem local_of_pre (x : FVec Ideal Cert.Pre_finite_inputs.S8x128x128x64 .f32)
    (mk : IVec Cert.Pre_finite_inputs.S8x128x128x64 32)
    (h : Cert.Pre_finite_inputs.fn (F := Ideal) x mk = fun _ => 1#1) : Local mk := by
  have h0 := congrFun h ValueIdx.ix0
  dsimp only [Cert.Pre_finite_inputs.fn, Cert.Pre_finite_inputs.fn_part1] at h0
  -- the outer conjunction: (finite ∧ rows) ∧ columns
  obtain ⟨h01, hcol⟩ := IntOp.andi_eq_one.1 h0
  obtain ⟨-, hrow⟩ := IntOp.andi_eq_one.1 h01
  intro b hh w c
  -- each all-reduction, read at the position (b, hh, w, c)
  have hr := Host.reduce_andi_all _ _ _ _ _ hrow (ix4 b hh w c)
  have hc := Host.reduce_andi_all _ _ _ _ _ hcol (ix4 b hh w c)
  exact ⟨StableHlo.Predicate.cmpi_eq_iff.1 hr, StableHlo.Predicate.cmpi_eq_iff.1 hc⟩

end Cert.Unpool

end
-- ==== Proof.lean ====
/-
  Max-unpooling with 2×2 windows: a tiled kernel against a scatter-add.

  The kernel places each pooled value inside its own 2×2 window of the unpooled array, at the row and column
  parities two bits of the value's flat index word name, and writes zeros elsewhere.  The reference decodes each
  index word into a full row and column (a floored quotient and a floored remainder) and adds the value at that
  element of an array of zeros.  The two agree when every index word points into its own position's window —
  the argmax of a 2×2 pooling always does —, which the precondition states: then at most one position reaches
  each element of the unpooled array, the reference's sum over the positions landing there is one value or
  empty, and zero plus it is what the kernel selected.  No law of the extended reals beyond `0 + x = x` is
  used, so the finiteness of the pooled values plays no part.

  The three frames: the kernel's two are its frame certificate at each instance; the reference's is its run with
  the result dropped.  The idealization rewrote nothing, so `preserves` is trivial.
-/
import proofs.«403514_j1082331758744_3_alg».proof.Defs
import proofs.«403514_j1082331758744_3_alg».proof.Proof.Gen.Kernel
import proofs.«403514_j1082331758744_3_alg».proof.Proof.Gen.Kernel.Skeleton
import proofs.«403514_j1082331758744_3_alg».proof.Proof.Gen.Kernel.Launch
import proofs.«403514_j1082331758744_3_alg».proof.Proof.Gen.Kernel.Points
import proofs.«403514_j1082331758744_3_alg».proof.Proof.Gen.Kernel.Frame
import proofs.«403514_j1082331758744_3_alg».proof.Proof.Gen.KernelIdeal
import proofs.«403514_j1082331758744_3_alg».proof.Proof.Gen.KernelIdeal.Skeleton
import proofs.«403514_j1082331758744_3_alg».proof.Proof.Gen.KernelIdeal.Launch
import proofs.«403514_j1082331758744_3_alg».proof.Proof.Gen.KernelIdeal.Points
import proofs.«403514_j1082331758744_3_alg».proof.Proof.Gen.KernelIdeal.Frame
import proofs.«403514_j1082331758744_3_alg».proof.Proof.Gen.ReferenceIdeal
import proofs.«403514_j1082331758744_3_alg».proof.Proof.Gen.Pre_finite_inputs
import proofs.«403514_j1082331758744_3_alg».proof.Proof.KernelValue
import proofs.«403514_j1082331758744_3_alg».proof.Proof.RefRun
import proofs.«403514_j1082331758744_3_alg».proof.Proof.RefValue
import proofs.«403514_j1082331758744_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both runs end at the unpooled array `G` of the shared arguments: the kernel's for any index words, the
    reference's because the precondition makes them local. -/
theorem algebraic : Cert.algebraic_KernelIdeal_ReferenceIdeal := by
  intro m ρ m' ρ' hpre hagree
  refine ⟨fun c => Cert.Unpool.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  exact Cert.Unpool.ref_value (Cert.Unpool.local_of_pre _ _ (hpre c)) _ _
    (fun b h w k e => Cert.ReferenceIdeal.RefRun.refIdx_apply _ b h w k e)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
